-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S256x40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S256x40 .f32 := Host.absf main_arg12
  let main_cst_20 : FVec F S_ .f32 := constant S_ .f32 0x7F800000#32
  let main_v55 : FVec F S256x40 .f32 := broadcastInDim S256x40 ![] bcast_S_S256x40 main_cst_20
  let main_v56 : IVec S256x40 1 := cmpf .olt main_v54 main_v55
  let main_c_21 : IVec S_ 1 := constantI S_ 1 1#1
  let main_v57 : IVec S_ 1 := (fun x v => Host.reduce IntOp.andi x v reducesTo_S256x40_S_d0_1 h_S_) main_v56 main_c_21
  let main_v58 : IVec S_ 1 := andi main_v53 main_v57
  main_v58

def fn_part2 {F : FTy → Type} [FloatOps F] (main_arg8 : FVec F S256 .f32) (main_arg9 : FVec F S128x256 .f32) (main_arg10 : FVec F S256x40 .f32) (main_arg11 : FVec F S40 .f32) (main_arg12 : FVec F S256x40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_v48 main_v49 main_v50

def fn_part1 {F : FTy → Type} [FloatOps F] (main_arg5 : FVec F S128 .f32) (main_arg6 : FVec F S128x128 .f32) (main_arg7 : FVec F S128x256 .f32) (main_arg8 : FVec F S256 .f32) (main_arg9 : FVec F S128x256 .f32) (main_arg10 : FVec F S256x40 .f32) (main_arg11 : FVec F S40 .f32) (main_arg12 : FVec F S256x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x500 .f32) (main_arg1 : IVec S2x800000 32) (main_arg2 : FVec F S500x128 .f32) (main_arg3 : FVec F S128 .f32) (main_arg4 : FVec F S128x128 .f32) (main_arg5 : FVec F S128 .f32) (main_arg6 : FVec F S128x128 .f32) (main_arg7 : FVec F S128x256 .f32) (main_arg8 : FVec F S256 .f32) (main_arg9 : FVec F S128x256 .f32) (main_arg10 : FVec F S256x40 .f32) (main_arg11 : FVec F S40 .f32) (main_arg12 : FVec F S256x40 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x500 : Shape := ⟨2, ![5000, 500]⟩
abbrev S5000x128 : Shape := ⟨2, ![5000, 128]⟩
abbrev S800000x128 : Shape := ⟨2, ![800000, 128]⟩
abbrev S1x256 : Shape := ⟨2, ![1, 256]⟩
abbrev S50000x256 : Shape := ⟨2, ![50000, 256]⟩
abbrev S5000x256 : Shape := ⟨2, ![5000, 256]⟩
abbrev S800000x256 : Shape := ⟨2, ![800000, 256]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 98
  | .vmem => 33
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S500x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S256x40, .f32⟩
  | .hbm, ⟨11, _⟩ => ⟨S40, .f32⟩
  | .hbm, ⟨12, _⟩ => ⟨S256x40, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x256, .f32⟩
  | .hbm, ⟨65, _⟩ => ⟨S50000x256, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .f32⟩
  | .hbm, ⟨75, _⟩ => ⟨S_, .f32⟩
  | .hbm, ⟨76, _⟩ => ⟨S50000x256, .f32⟩
  | .hbm, ⟨77, _⟩ => ⟨S800000x1, .i32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x40, .f32⟩
  | .hbm, ⟨82, _⟩ => ⟨S50000x40, .f32⟩
  | .hbm, ⟨83, _⟩ => ⟨S_, .f32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x40, .f32⟩
  | .hbm, ⟨90, _⟩ => ⟨S50000x40, .f32⟩
  | .hbm, ⟨91, _⟩ => ⟨S50000x40, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S50000x40, .f32⟩
  | .hbm, ⟨97, _⟩ => ⟨S50000x40, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x256, .f32⟩
  | .local _ .vmem, ⟨20, _⟩ => ⟨S128x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S256x40, .f32⟩
  | .local _ .vmem, ⟨29, _⟩ => ⟨S256x40, .f32⟩
  | .local _ .vmem, ⟨30, _⟩ => ⟨S1x40, .f32⟩
  | .local _ .vmem, ⟨31, _⟩ => ⟨S5000x40, .f32⟩
  | .local _ .vmem, ⟨32, _⟩ => ⟨S5000x40, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_call0_cst_0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_cst_1 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_v57 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S40_S1x40 : S40.ShapeCasts S1x40
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  dot_S5000x500_S500x128_S5000x128_1_0_0_1_n_n_wf : DotDims.WF S5000x500 S500x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S50000x500.size a
  hwx0_0 : ∀ i : grid0.Coords, EltTy.bits .f32 = 32 ∨ (Rect.block (s := S50000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x40.size a ≤ S256x40.size a
  hwx3_2 : ∀ i : grid3.Coords, EltTy.bits .f32 = 32 ∨ (Rect.block (s := S256x40) S256x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x40.size a ≤ S256x40.size a
  hwx3_3 : ∀ i : grid3.Coords, EltTy.bits .f32 = 32 ∨ (Rect.block (s := S256x40) S256x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S50000x40.size a
  hwx3_5 : ∀ i : grid3.Coords, EltTy.bits .f32 = 32 ∨ (Rect.block (s := S50000x40) S5000x40.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S256x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S500x128 : Shape := ⟨2, ![500, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x40 : Shape := ⟨2, ![50000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S50000x500, .f32⟩
  | 1 => ⟨S2x800000, .i32⟩
  | 2 => ⟨S500x128, .f32⟩
  | 3 => ⟨S128, .f32⟩
  | 4 => ⟨S128x128, .f32⟩
  | 5 => ⟨S128, .f32⟩
  | 6 => ⟨S128x128, .f32⟩
  | 7 => ⟨S128x256, .f32⟩
  | 8 => ⟨S256, .f32⟩
  | 9 => ⟨S128x256, .f32⟩
  | 10 => ⟨S256x40, .f32⟩
  | 11 => ⟨S40, .f32⟩
  | 12 => ⟨S256x40, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x256, .f32⟩
  | 81 => ⟨S1x256, .f32⟩
  | 82 => ⟨S50000x256, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x40, .f32⟩
  | 115 => ⟨S1x40, .f32⟩
  | 116 => ⟨S50000x40, .f32⟩
  | 117 => ⟨S50000x40, .f32⟩
  | 118 => ⟨S50000x40, .f32⟩
  | 119 => ⟨S50000x40, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x40, .f32⟩
  | 127 => ⟨S50000x40, .f32⟩
  | _ => ⟨S50000x500, .f32⟩

abbrev hbmTy0_1 (i : Nat) : BufTy := match i % 128 with
  | 0 => ⟨S50000x40, .f32⟩
  | 1 => ⟨S_, .f32⟩
  | 2 => ⟨S50000, .f32⟩
  | 3 => ⟨S50000x1, .f32⟩
  | 4 => ⟨S50000x1, .f32⟩
  | 5 => ⟨S50000x40, .f32⟩
  | 6 => ⟨S50000x40, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v85 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  dot_S50000x500_S500x128_S50000x128_1_0_0_1_n_n_wf : DotDims.WF S50000x500 S500x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def dot_S50000x500_S500x128_S50000x128_1_0_0_1_n_n : DotDims S50000x500 S500x128 S50000x128 where
  lhsContracting := [1]
  rhsContracting := [0]
  lhsNonContracting := [0]
  rhsNonContracting := [1]
  lhsBatch := []
  rhsBatch := []
  wf := dot_S50000x500_S500x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
/-
  The arithmetic of one GraphSAGE layer, stated once over plain index functions on the extended reals.

  A linear layer's entry is a row of the input against a column of the weights plus a bias entry
  (`lin`); a SAGE layer's entry is the neighbour mean's row against one weight matrix, plus the
  node's own row against another, plus a bias entry (`sage`).  Both programs compute these
  entries; they differ in how the mean is formed (a product with a reciprocal against a quotient:
  `mean_law`) and in which of the three addends is added last (`sage_comm`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Entry `(r, q)` of `x · W + b`. -/
def lin {n k d : ℕ} (x : Fin n → Fin k → EReal) (W : Fin k → Fin d → EReal) (b : Fin d → EReal)
    (r : Fin n) (q : Fin d) : EReal :=
  (∑ j : Fin k, x r j * W j q) + b q

/-- Entry `(r, q)` of `mean · Wl + x · Wr + b`. -/
def sage {n k d : ℕ} (mean x : Fin n → Fin k → EReal) (Wl Wr : Fin k → Fin d → EReal) (b : Fin d → EReal)
    (r : Fin n) (q : Fin d) : EReal :=
  ((∑ j : Fin k, mean r j * Wl j q) + (∑ j : Fin k, x r j * Wr j q)) + b q

/-- The same entry with the bias added before the node's own term: addition of extended reals is
    commutative and associative, so the order of the three addends does not matter. -/
theorem sage_comm {n k d : ℕ} (mean x : Fin n → Fin k → EReal) (Wl Wr : Fin k → Fin d → EReal) (b : Fin d → EReal)
    (r : Fin n) (q : Fin d) :
    ((∑ j : Fin k, mean r j * Wl j q) + b q) + (∑ j : Fin k, x r j * Wr j q) = sage mean x Wl Wr b r q := by
  unfold sage
  exact add_right_comm _ _ _

/-- A rank-2 array as a function of its row and column. -/
abbrev rows2 {n k : ℕ} (A : (⟨2, ![n, k]⟩ : Shape).Idx → EReal) : Fin n → Fin k → EReal :=
  fun r j => A (ix2 r j)

/-- The single row of a `[1, d]` array as a function of the column. -/
abbrev row1 {d : ℕ} (b : (⟨2, ![1, d]⟩ : Shape).Idx → EReal) : Fin d → EReal :=
  fun q => b (ix2 (0 : Fin 1) q)

/-- A rank-1 array as a function of its coordinate. -/
abbrev vec1 {d : ℕ} (b : (⟨1, ![d]⟩ : Shape).Idx → EReal) : Fin d → EReal :=
  fun q => b (ix1 q)

/-- A function of row and column as a rank-2 array. -/
abbrev arr2 {n d : ℕ} (f : Fin n → Fin d → EReal) : (⟨2, ![n, d]⟩ : Shape).Idx → EReal :=
  fun i => f (i 0) (i 1)

/-- The word of `1.0` denotes the real one. -/
theorem ofBits_one : Ideal.ofBits .f32 0x3F800000#32 = 1 := by
  simp [Ideal.ofBits, Ideal.ieee, -EReal.coe_mul]; norm_num

/-- The word of `+0.0` denotes zero. -/
theorem ofBits_zero : Ideal.ofBits .f32 0x00000000#32 = 0 := Ideal.ofBits_zero_f32

/-- A count floored at one is never zero. -/
theorem max_one_ne_zero (x : EReal) : max x 1 ≠ 0 := by
  have h : (0 : EReal) < max x 1 := lt_of_lt_of_le zero_lt_one (le_max_right x 1)
  exact ne_of_gt h

/-- Multiplying by the reciprocal of a nonzero divisor is dividing by it: off zero the ideal
    quotient is the product with the inverse, and `1 · c⁻¹ = c⁻¹`. -/
theorem mul_recip (a c : EReal) (hc : c ≠ 0) : a * Ideal.div 1 c = Ideal.div a c := by
  unfold Ideal.div
  rw [if_neg hc, if_neg hc, one_mul]

/-- The neighbour mean either way: the sum times the reciprocal of the floored count is the sum
    divided by the floored count. -/
theorem mean_law (a x : EReal) : a * Ideal.div 1 (max x 1) = Ideal.div a (max x 1) :=
  mul_recip a _ (max_one_ne_zero x)

end Cert.Sage

end
-- ==== Proof.Region0.lean ====
import proofs.«180406_j83794811945603_1_alg».proof.Proof.Gen.KernelIdeal.Frame
import proofs.«180406_j83794811945603_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- What the first call leaves in its output array, as one function of the arrays it finds at entry: entry `(r, q)`
    is row `r` of the node features against column `q` of the projection, plus the bias row's entry `q`. -/
def G (c : Dev nD) : S50000x128.Idx → EReal :=
  arr2 fun r q => lin (rows2 (V c main_arg0 : S50000x500.Idx → EReal)) (rows2 (V c main_arg2 : S500x128.Idx → EReal))
    (row1 (V c main_v13 : S1x128.Idx → EReal)) r q

/-! ## The block's arithmetic at one entry -/

/-- The zero offsets of a whole-block access. -/
theorem zero_off : (![0, 0] : Fin 2 → Nat) = fun _ => 0 := funext fun a => by fin_cases a <;> rfl

/-- The left operand of the product is read at the output's row … -/
theorem lhs_row (i : S5000x128.Idx) (k : dot_S5000x500_S500x128_S5000x128_1_0_0_1_n_n.contr.Idx) :
    (dot_S5000x500_S500x128_S5000x128_1_0_0_1_n_n.lhsIdx i k 0).val = (i 0).val := by
  unfold DotDims.lhsIdx
  rw [dif_neg (show ¬(0 : Fin S5000x500.rank) ∈ dot_S5000x500_S500x128_S5000x128_1_0_0_1_n_n.lhsBatch by decide), dif_pos (show (0 : Fin S5000x500.rank) ∈ dot_S5000x500_S500x128_S5000x128_1_0_0_1_n_n.lhsNonContracting by decide)]
  rfl
/-- … and at the contracted coordinate; -/
theorem lhs_contr (i : S5000x128.Idx) (k : dot_S5000x500_S500x128_S5000x128_1_0_0_1_n_n.contr.Idx) :
    (dot_S5000x500_S500x128_S5000x128_1_0_0_1_n_n.lhsIdx i k 1).val = (k ⟨0, by decide⟩).val :=
  dot_S5000x500_S500x128_S5000x128_1_0_0_1_n_n.lhsIdx_val_of_single rfl i k
/-- the right operand at the contracted coordinate … -/
theorem rhs_contr (i : S5000x128.Idx) (k : dot_S5000x500_S500x128_S5000x128_1_0_0_1_n_n.contr.Idx) :
    (dot_S5000x500_S500x128_S5000x128_1_0_0_1_n_n.rhsIdx i k 0).val = (k ⟨0, by decide⟩).val :=
  dot_S5000x500_S500x128_S5000x128_1_0_0_1_n_n.rhsIdx_val_of_single rfl i k
/-- … and at the output's column. -/
theorem rhs_col (i : S5000x128.Idx) (k : dot_S5000x500_S500x128_S5000x128_1_0_0_1_n_n.contr.Idx) :
    (dot_S5000x500_S500x128_S5000x128_1_0_0_1_n_n.rhsIdx i k 1).val = (i 1).val := by
  unfold DotDims.rhsIdx
  rw [dif_neg (show ¬(1 : Fin S500x128.rank) ∈ dot_S5000x500_S500x128_S5000x128_1_0_0_1_n_n.rhsBatch by decide), dif_pos (show (1 : Fin S500x128.rank) ∈ dot_S5000x500_S500x128_S5000x128_1_0_0_1_n_n.rhsNonContracting by decide)]
  rfl

/-- The product into a zero accumulator, at entry `(p, q)`: row `p` of the left operand against column `q` of the
    right one, summed over the 500 contracted coordinates. -/
theorem prod_apply (a : FVec Ideal S5000x500 .bf16) (b : FVec Ideal S500x128 .bf16) (p : Fin 5000) (q : Fin 128) :
    matmul dot_S5000x500_S500x128_S5000x128_1_0_0_1_n_n none a b (constant (F := Ideal) S5000x128 .f32 0x00000000#32) (ix2 p q)
      = ∑ j : Fin 500, a (ix2 p j) * b (ix2 j q) := by
  refine (Ideal.matmul_constant_zero_apply dot_S5000x500_S500x128_S5000x128_1_0_0_1_n_n none a b (ix2 p q)).trans ?_
  rw [← Equiv.sum_comp (contrEquiv1 dot_S5000x500_S500x128_S5000x128_1_0_0_1_n_n 500 rfl rfl).symm]
  refine Finset.sum_congr rfl fun j _ => ?_
  have hj := contrEquiv1_symm_val dot_S5000x500_S500x128_S5000x128_1_0_0_1_n_n 500 rfl rfl j
  have el : dot_S5000x500_S500x128_S5000x128_1_0_0_1_n_n.lhsIdx (ix2 p q) ((contrEquiv1 dot_S5000x500_S500x128_S5000x128_1_0_0_1_n_n 500 rfl rfl).symm j) = ix2 p j := funext fun x => Fin.ext (by
    match x with
    | ⟨0, _⟩ => exact lhs_row _ _
    | ⟨1, _⟩ => exact (lhs_contr _ _).trans hj)
  have er : dot_S5000x500_S500x128_S5000x128_1_0_0_1_n_n.rhsIdx (ix2 p q) ((contrEquiv1 dot_S5000x500_S500x128_S5000x128_1_0_0_1_n_n 500 rfl rfl).symm j) = ix2 j q := funext fun x => Fin.ext (by
    match x with
    | ⟨0, _⟩ => exact (rhs_contr _ _).trans hj
    | ⟨1, _⟩ => exact rhs_col _ _)
  rw [el, er]

/-- The body's value at entry `(p, q)` of the block: row `p` of the feature block against column `q` of the
    projection, plus the bias row's entry `q`. -/
theorem pay_apply (v0 : Vec Ideal S5000x500 .f32) (v2 : Vec Ideal S500x128 .f32) (v5 : Vec Ideal S1x128 .f32)
    (p : Fin 5000) (q : Fin 128) :
    k0_pay1 (F := Ideal) v0 v2 v5 (ix2 p q) = (∑ j : Fin 500, v0 (ix2 p j) * v2 (ix2 j q)) + v5 (ix2 (0 : Fin 1) q) := by
  unfold k0_pay1
  refine (addf_apply _ _ (ix2 p q)).trans ?_
  refine congrArg₂ (· + ·) ?_ ?_
  · exact prod_apply _ _ p q
  · refine (broadcastTo_1b_ab_apply _ broadcasts_S1x128_S5000x128 p q).trans ?_
    rw [shapeCast_self]

/-! ## From the blocks to the array -/

/-- The index maps over the grid: at point `t` the feature block and the output block are block `t` along the rows
    and block 0 along the columns; the projection and the bias row are their arrays' one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the call reads, as the region finds them, each at its literal type. -/
abbrev feat (c : Dev nD) : S50000x500.Idx → EReal := V c main_arg0
abbrev proj (c : Dev nD) : S500x128.Idx → EReal := V c main_arg2
abbrev bias (c : Dev nD) : S1x128.Idx → EReal := V c main_v13

/-- The feature block at point `t` is rows `5000 t … 5000 t + 4999` of the feature array. -/
theorem feat_blk (c : Dev nD) (t : Fin cfg0.N) (p : Fin 5000) (k : Fin 500) (r : Fin 50000)
    (hr : r.val = t.val * 5000 + p.val) :
    (iblk0 V c 0 t : S5000x500.Idx → EReal) (ix2 p k) = (V c main_arg0 : S50000x500.Idx → EReal) (ix2 r k) := by
  obtain ⟨e0, e1, -⟩ := index_maps t
  show (V c main_arg0 : S50000x500.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 500 + 1 * k.val = k.val; omega

/-- The projection's block at every point is the whole projection. -/
theorem proj_blk (c : Dev nD) (t : Fin cfg0.N) (k : Fin 500) (q : Fin 128) :
    (iblk0 V c 1 t : S500x128.Idx → EReal) (ix2 k q) = (V c main_arg2 : S500x128.Idx → EReal) (ix2 k q) := by
  obtain ⟨-, -, e0, e1, -⟩ := index_maps t
  show (V c main_arg2 : S500x128.Idx → EReal) (((cfg0.win 1).blk t).view.emb (ix2 k q)) = _
  refine congrArg _ (funext fun a => Fin.ext ?_)
  match a with
  | ⟨0, _⟩ => show win0_1.index t (0 : Fin 2) * 500 + 1 * k.val = k.val; omega
  | ⟨1, _⟩ => show win0_1.index t (1 : Fin 2) * 128 + 1 * q.val = q.val; omega

/-- The bias row's block at every point is the whole row. -/
theorem bias_blk (c : Dev nD) (t : Fin cfg0.N) (q : Fin 128) :
    (iblk0 V c 2 t : S1x128.Idx → EReal) (ix2 (0 : Fin 1) q) = (V c main_v13 : S1x128.Idx → EReal) (ix2 (0 : Fin 1) q) := by
  obtain ⟨-, -, -, -, e0, e1, -⟩ := index_maps t
  show (V c main_v13 : S1x128.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry `(p, q)` of what the body leaves at point `t` is entry `(5000 t + p, q)` of `G`. -/
theorem block_entry (c : Dev nD) (t : Fin cfg0.N) (j : S5000x128.Idx) :
    k0_pay1 (F := Ideal) (iblk0 V c 0 t) (iblk0 V c 1 t) (iblk0 V c 2 t) j
      = G V c (((cfg0.win 3).blk t).view.emb j) := by
  obtain ⟨p, q, rfl⟩ : ∃ (p : Fin 5000) (q : Fin 128), j = ix2 p q := ⟨j 0, j 1, eq_ix2 j⟩
  obtain ⟨-, -, -, -, -, -, e0, e1⟩ := index_maps t
  have ht : t.val < 10 := lt_of_lt_of_eq t.isLt N_0
  have hi : ((cfg0.win 3).blk t).view.emb (ix2 p q)
      = (ix2 (⟨t.val * 5000 + p.val, by omega⟩ : Fin 50000) q : S50000x128.Idx) := funext fun a => Fin.ext (by
    match a with
    | ⟨0, _⟩ => show win0_3.index t (0 : Fin 2) * 5000 + 1 * p.val = t.val * 5000 + p.val; omega
    | ⟨1, _⟩ => show win0_3.index t (1 : Fin 2) * 128 + 1 * q.val = q.val; omega)
  refine (pay_apply (iblk0 V c 0 t) (iblk0 V c 1 t) (iblk0 V c 2 t) p q).trans ?_
  refine Eq.trans ?_ (congrArg (G V c) hi).symm
  show _ = (∑ k : Fin 500, feat V c (ix2 (⟨t.val * 5000 + p.val, by omega⟩ : Fin 50000) k) * proj V c (ix2 k q))
      + bias V c (ix2 (0 : Fin 1) q)
  exact congrArg₂ (· + ·)
    (Finset.sum_congr rfl fun k _ => congrArg₂ (· * ·) (feat_blk V c t p k _ rfl) (proj_blk V c t k q))
    (bias_blk V c t q)

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero zero_off]
  simp only [View.ld_unit_zero (S := S5000x500) zero_off, View.ld_unit_zero (S := S500x128) zero_off, View.ld_unit_zero (S := S1x128) zero_off]
  funext j
  exact block_entry V c t j

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row `r` of the output array is in the block of point `r / 5000`, and every point writes its block back. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e0, e1⟩ := index_maps t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region's ten grid points is `G` of the arrays the region found at entry. -/
theorem final (c : Dev nD) : (dat0 (F := Ideal) V c).arrAt 3 cfg0.N = G V c :=
  (dat0 V c).arrAt_eq_of_cover 3 (G V c) (fun t _ => flushed_eq V c t) cover

end Cert.KernelIdeal.Region0

end
-- ==== Proof.Region1.lean ====
import proofs.«180406_j83794811945603_1_alg».proof.Proof.Gen.KernelIdeal.Frame
import proofs.«180406_j83794811945603_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-! ## One block's product against a weight matrix, entry by entry

The contraction runs over the second axis of the block and the first axis of the weights; the block's row and the
weights' column are the output entry's. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of a block times a weight matrix, accumulated from zero, is the sum over `j` of the block's
    entry `(p, j)` times the weights' entry `(j, q)`. -/
theorem matmul_entry {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ j : Fin 128, l (ix2 p j) * r (ix2 j q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an entry -/

/-- Entry `(p, q)` of what the body stores: the first block's row `p` against the first weights' column `q`, plus the
    second block's row `p` against the second weights' column `q`, plus the bias row's entry `q`, floored at zero. The
    narrowing to bf16 and the casts to the same shape change nothing at the extended reals. -/
theorem payload_entry (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q)
      = max (((∑ j : Fin 128, v0 (ix2 p j) * v6 (ix2 j q)) + (∑ j : Fin 128, v3 (ix2 p j) * v8 (ix2 j q))) + v13 (ix2 (0 : Fin 1) q)) 0 := by
  unfold k1_pay1
  rw [maximumf_apply, addf_apply, addf_apply, matmul_entry, matmul_entry, broadcast_apply, broadcastTo_1b_ab_apply, shapeCast_self, shapeCast_self, shapeCast_self]
  simp only [truncf_apply]
  rw [show (Scalar.ofBits .f32 0x00000000#32 : Ideal .f32) = 0 from ofBits_zero]

/-! ## From the blocks to the array -/

theorem hz : (![0, 0] : Fin 2 → Nat) = fun _ => 0 := funext fun a => by fin_cases a <;> rfl

/-- The block index maps over the grid: at point `t` the two row arrays and the output are at block row `t`, the weights
    and the bias row at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The first window's block at point `t` is rows `5000 t … 5000 t + 4999` of the mean array. -/
theorem mean_block_entry (c : Dev nD) (t : Fin cfg1.N) (p : Fin 5000) (j : Fin 128) (r : Fin 50000) (hr : r.val = 5000 * t.val + p.val) :
    (iblk1 V c 0 t : Vec Ideal S5000x128 .f32) (ix2 p j) = (V c main_v26 : S50000x128.Idx → EReal) (ix2 r j) := by
  obtain ⟨e0, e1, -⟩ := idx_facts t
  unfold iblk1
  rw [View.read_apply]
  show V c main_v26 _ = V c main_v26 _
  congr 1
  funext a; apply Fin.ext
  match a with
  | ⟨0, _⟩ => show win1_0.index t (0 : Fin 2) * 5000 + 1 * p.val = r.val; omega
  | ⟨1, _⟩ => show win1_0.index t (1 : Fin 2) * 128 + 1 * j.val = j.val; omega

/-- The second window's block at point `t` is the same rows of the node array. -/
theorem node_block_entry (c : Dev nD) (t : Fin cfg1.N) (p : Fin 5000) (j : Fin 128) (r : Fin 50000) (hr : r.val = 5000 * t.val + p.val) :
    (iblk1 V c 1 t : Vec Ideal S5000x128 .f32) (ix2 p j) = (V c main_v14 : S50000x128.Idx → EReal) (ix2 r j) := by
  obtain ⟨-, -, e0, e1, -⟩ := idx_facts t
  unfold iblk1
  rw [View.read_apply]
  show V c main_v14 _ = V c main_v14 _
  congr 1
  funext a; apply Fin.ext
  match a with
  | ⟨0, _⟩ => show win1_1.index t (0 : Fin 2) * 5000 + 1 * p.val = r.val; omega
  | ⟨1, _⟩ => show win1_1.index t (1 : Fin 2) * 128 + 1 * j.val = j.val; omega

/-- The third window's block at every point is the whole first weight matrix. -/
theorem wl_block_entry (c : Dev nD) (t : Fin cfg1.N) (j : Fin 128) (q : Fin 128) :
    (iblk1 V c 2 t : Vec Ideal S128x128 .f32) (ix2 j q) = (V c main_arg4 : S128x128.Idx → EReal) (ix2 j q) := by
  obtain ⟨-, -, -, -, e0, e1, -⟩ := idx_facts t
  unfold iblk1
  rw [View.read_apply]
  show V c main_arg4 _ = V c main_arg4 _
  congr 1
  funext a; apply Fin.ext
  match a with
  | ⟨0, _⟩ => show win1_2.index t (0 : Fin 2) * 128 + 1 * j.val = j.val; omega
  | ⟨1, _⟩ => show win1_2.index t (1 : Fin 2) * 128 + 1 * q.val = q.val; omega

/-- The fourth window's block at every point is the whole second weight matrix. -/
theorem wr_block_entry (c : Dev nD) (t : Fin cfg1.N) (j : Fin 128) (q : Fin 128) :
    (iblk1 V c 3 t : Vec Ideal S128x128 .f32) (ix2 j q) = (V c main_arg6 : S128x128.Idx → EReal) (ix2 j q) := by
  obtain ⟨-, -, -, -, -, -, e0, e1, -⟩ := idx_facts t
  unfold iblk1
  rw [View.read_apply]
  show V c main_arg6 _ = V c main_arg6 _
  congr 1
  funext a; apply Fin.ext
  match a with
  | ⟨0, _⟩ => show win1_3.index t (0 : Fin 2) * 128 + 1 * j.val = j.val; omega
  | ⟨1, _⟩ => show win1_3.index t (1 : Fin 2) * 128 + 1 * q.val = q.val; omega

/-- The fifth window's block at every point is the whole bias row. -/
theorem bias_block_entry (c : Dev nD) (t : Fin cfg1.N) (q : Fin 128) :
    (iblk1 V c 4 t : Vec Ideal S1x128 .f32) (ix2 (0 : Fin 1) q) = (V c main_v27 : S1x128.Idx → EReal) (ix2 (0 : Fin 1) q) := by
  obtain ⟨-, -, -, -, -, -, -, -, e0, e1, -⟩ := idx_facts t
  unfold iblk1
  rw [View.read_apply]
  show V c main_v27 _ = V c main_v27 _
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- What the second call leaves in its output array, as one function of the arrays it finds at entry: entry `(r, q)`
    is the SAGE entry of the mean array, the node array, the two weight matrices and the bias row, floored at zero. -/
def G (c : Dev nD) : S50000x128.Idx → EReal :=
  arr2 fun r q => max (sage (rows2 (V c main_v26 : S50000x128.Idx → EReal)) (rows2 (V c main_v14 : S50000x128.Idx → EReal))
    (rows2 (V c main_arg4 : S128x128.Idx → EReal)) (rows2 (V c main_arg6 : S128x128.Idx → EReal)) (row1 (V c main_v27 : S1x128.Idx → EReal)) r q) 0

theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht : t.val < 10 := Nat.lt_of_lt_of_eq t.isLt N_1
  have hr : 5000 * t.val + p.val < 50000 := by have := p.isLt; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  have hemb : ((cfg1.win 5).blk t).view.emb (ix2 p q) = ix2 (⟨5000 * t.val + p.val, hr⟩ : Fin 50000) q := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  rw [hemb]
  refine (payload_entry (iblk1 V c 0 t) (iblk1 V c 1 t) (iblk1 V c 2 t) (iblk1 V c 3 t) (iblk1 V c 4 t) p q).trans ?_
  simp only [mean_block_entry V c t p _ ⟨5000 * t.val + p.val, hr⟩ rfl, node_block_entry V c t p _ ⟨5000 * t.val + p.val, hr⟩ rfl,
    wl_block_entry V c t, wr_block_entry V c t, bias_block_entry V c t]
  rfl

/-- An entry of the output array is in point `t`'s block when each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every entry of the output array is written back by some point: row `r` by point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, Nat.lt_of_lt_of_eq (by omega : (i 0).val / 5000 < 10) N_1.symm⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region's ten grid points is `G` of the arrays the region found at entry. -/
theorem final (c : Dev nD) : (dat1 (F := Ideal) V c).arrAt 5 cfg1.N = G V c :=
  (dat1 V c).arrAt_eq_of_cover 5 (G V c) (fun t _ => flushed_eq V c t) cover

end Cert.KernelIdeal.Region1

end
-- ==== Proof.Region2.lean ====
import proofs.«180406_j83794811945603_1_alg».proof.Proof.Gen.KernelIdeal.Frame
import proofs.«180406_j83794811945603_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-! ## One block's product against a weight matrix, entry by entry

The contraction runs over the second axis of the `[5000, 128]` block and the first axis of the `[128, 256]` weights; the
block's row and the weights' column are the output entry's. -/

theorem lhs_axis0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_axis1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_axis0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_axis1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry `(p, q)` of a block times a weight matrix, accumulated from zero, is the sum over `j` of the block's
    entry `(p, j)` times the weights' entry `(j, q)`. -/
theorem matmul_entry {φ₁ φ₂ : FTy} (l : FVec Ideal S5000x128 φ₁) (r : FVec Ideal S128x256 φ₂) (p : Fin 5000) (q : Fin 256) :
    matmul dot_S5000x128_S128x256_S5000x256_1_0_0_1_n_n none l r (constant S5000x256 .f32 0x00000000#32) (ix2 p q)
      = ∑ j : Fin 128, l (ix2 p j) * r (ix2 j q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an entry -/

/-- Entry `(p, q)` of what the body stores: the first block's row `p` against the first weights' column `q`, plus the
    second block's row `p` against the second weights' column `q`, plus the bias row's entry `q`, floored at zero. The
    narrowing to bf16 and the casts to the same shape change nothing at the extended reals. -/
theorem payload_entry (v0 v3 : Vec Ideal S5000x128 .f32) (v6 v8 : Vec Ideal S128x256 .f32) (v13 : Vec Ideal S1x256 .f32)
    (p : Fin 5000) (q : Fin 256) :
    k2_pay1 (F := Ideal) v0 v3 v6 v8 v13 (ix2 p q)
      = max (((∑ j : Fin 128, v0 (ix2 p j) * v6 (ix2 j q)) + (∑ j : Fin 128, v3 (ix2 p j) * v8 (ix2 j q))) + v13 (ix2 (0 : Fin 1) q)) 0 := by
  unfold k2_pay1
  rw [maximumf_apply, addf_apply, addf_apply, matmul_entry, matmul_entry, broadcast_apply, broadcastTo_1b_ab_apply, shapeCast_self, shapeCast_self, shapeCast_self]
  simp only [truncf_apply]
  rw [show (Scalar.ofBits .f32 0x00000000#32 : Ideal .f32) = 0 from ofBits_zero]

/-! ## From the blocks to the array -/

theorem hz : (![0, 0] : Fin 2 → Nat) = fun _ => 0 := funext fun a => by fin_cases a <;> rfl

/-- The block index maps over the grid: at point `t` the two row arrays and the output are at block row `t`, the weights
    and the bias row at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The first window's block at point `t` is rows `5000 t … 5000 t + 4999` of the mean array. -/
theorem mean_block_entry (c : Dev nD) (t : Fin cfg2.N) (p : Fin 5000) (j : Fin 128) (r : Fin 50000) (hr : r.val = 5000 * t.val + p.val) :
    (iblk2 V c 0 t : Vec Ideal S5000x128 .f32) (ix2 p j) = (V c main_v40 : S50000x128.Idx → EReal) (ix2 r j) := by
  obtain ⟨e0, e1, -⟩ := idx_facts t
  unfold iblk2
  rw [View.read_apply]
  show V c main_v40 _ = V c main_v40 _
  congr 1
  funext a; apply Fin.ext
  match a with
  | ⟨0, _⟩ => show win2_0.index t (0 : Fin 2) * 5000 + 1 * p.val = r.val; omega
  | ⟨1, _⟩ => show win2_0.index t (1 : Fin 2) * 128 + 1 * j.val = j.val; omega

/-- The second window's block at point `t` is the same rows of the node array. -/
theorem node_block_entry (c : Dev nD) (t : Fin cfg2.N) (p : Fin 5000) (j : Fin 128) (r : Fin 50000) (hr : r.val = 5000 * t.val + p.val) :
    (iblk2 V c 1 t : Vec Ideal S5000x128 .f32) (ix2 p j) = (V c main_v28 : S50000x128.Idx → EReal) (ix2 r j) := by
  obtain ⟨-, -, e0, e1, -⟩ := idx_facts t
  unfold iblk2
  rw [View.read_apply]
  show V c main_v28 _ = V c main_v28 _
  congr 1
  funext a; apply Fin.ext
  match a with
  | ⟨0, _⟩ => show win2_1.index t (0 : Fin 2) * 5000 + 1 * p.val = r.val; omega
  | ⟨1, _⟩ => show win2_1.index t (1 : Fin 2) * 128 + 1 * j.val = j.val; omega

/-- The third window's block at every point is the whole first weight matrix. -/
theorem wl_block_entry (c : Dev nD) (t : Fin cfg2.N) (j : Fin 128) (q : Fin 256) :
    (iblk2 V c 2 t : Vec Ideal S128x256 .f32) (ix2 j q) = (V c main_arg7 : S128x256.Idx → EReal) (ix2 j q) := by
  obtain ⟨-, -, -, -, e0, e1, -⟩ := idx_facts t
  unfold iblk2
  rw [View.read_apply]
  show V c main_arg7 _ = V c main_arg7 _
  congr 1
  funext a; apply Fin.ext
  match a with
  | ⟨0, _⟩ => show win2_2.index t (0 : Fin 2) * 128 + 1 * j.val = j.val; omega
  | ⟨1, _⟩ => show win2_2.index t (1 : Fin 2) * 256 + 1 * q.val = q.val; omega

/-- The fourth window's block at every point is the whole second weight matrix. -/
theorem wr_block_entry (c : Dev nD) (t : Fin cfg2.N) (j : Fin 128) (q : Fin 256) :
    (iblk2 V c 3 t : Vec Ideal S128x256 .f32) (ix2 j q) = (V c main_arg9 : S128x256.Idx → EReal) (ix2 j q) := by
  obtain ⟨-, -, -, -, -, -, e0, e1, -⟩ := idx_facts t
  unfold iblk2
  rw [View.read_apply]
  show V c main_arg9 _ = V c main_arg9 _
  congr 1
  funext a; apply Fin.ext
  match a with
  | ⟨0, _⟩ => show win2_3.index t (0 : Fin 2) * 128 + 1 * j.val = j.val; omega
  | ⟨1, _⟩ => show win2_3.index t (1 : Fin 2) * 256 + 1 * q.val = q.val; omega

/-- The fifth window's block at every point is the whole bias row. -/
theorem bias_block_entry (c : Dev nD) (t : Fin cfg2.N) (q : Fin 256) :
    (iblk2 V c 4 t : Vec Ideal S1x256 .f32) (ix2 (0 : Fin 1) q) = (V c main_v41 : S1x256.Idx → EReal) (ix2 (0 : Fin 1) q) := by
  obtain ⟨-, -, -, -, -, -, -, -, e0, e1, -⟩ := idx_facts t
  unfold iblk2
  rw [View.read_apply]
  show V c main_v41 _ = V c main_v41 _
  congr 1
  funext a; apply Fin.ext
  match a with
  | ⟨0, _⟩ => show win2_4.index t (0 : Fin 2) * 1 + 1 * (0 : Fin 1).val = (0 : Fin 1).val; omega
  | ⟨1, _⟩ => show win2_4.index t (1 : Fin 2) * 256 + 1 * q.val = q.val; omega

/-- What the third call leaves in its output array, as one function of the arrays it finds at entry: entry `(r, q)`
    is the SAGE entry of the mean array, the node array, the two weight matrices and the bias row, floored at zero. -/
def G (c : Dev nD) : S50000x256.Idx → EReal :=
  arr2 fun r q => max (sage (rows2 (V c main_v40 : S50000x128.Idx → EReal)) (rows2 (V c main_v28 : S50000x128.Idx → EReal))
    (rows2 (V c main_arg7 : S128x256.Idx → EReal)) (rows2 (V c main_arg9 : S128x256.Idx → EReal)) (row1 (V c main_v41 : S1x256.Idx → EReal)) r q) 0

/-- What point `t` writes back is block `t` of `G`: each stored entry is the body's arithmetic on the input blocks'
    entries, and those are the arrays' entries on the output entry's row and column. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x256) hz, View.ld_unit_zero (S := S1x256) hz]
  funext j
  obtain ⟨p, q, rfl⟩ : ∃ (p : Fin 5000) (q : Fin 256), j = ix2 p q := ⟨j 0, j 1, eq_ix2 j⟩
  obtain ⟨-, -, -, -, -, -, -, -, -, -, e0, e1⟩ := idx_facts t
  have ht : t.val < 10 := Nat.lt_of_lt_of_eq t.isLt N_2
  have hr : 5000 * t.val + p.val < 50000 := by have := p.isLt; omega
  show k2_pay1 (F := Ideal) (iblk2 V c 0 t) (iblk2 V c 1 t) (iblk2 V c 2 t) (iblk2 V c 3 t) (iblk2 V c 4 t) (ix2 p q)
    = G V c (((cfg2.win 5).blk t).view.emb (ix2 p q))
  have hemb : ((cfg2.win 5).blk t).view.emb (ix2 p q) = ix2 (⟨5000 * t.val + p.val, hr⟩ : Fin 50000) q := by
    funext a; apply Fin.ext
    match a with
    | ⟨0, _⟩ => show win2_5.index t (0 : Fin 2) * 5000 + 1 * p.val = 5000 * t.val + p.val; omega
    | ⟨1, _⟩ => show win2_5.index t (1 : Fin 2) * 256 + 1 * q.val = q.val; omega
  rw [hemb]
  refine (payload_entry (iblk2 V c 0 t) (iblk2 V c 1 t) (iblk2 V c 2 t) (iblk2 V c 3 t) (iblk2 V c 4 t) p q).trans ?_
  simp only [mean_block_entry V c t p _ ⟨5000 * t.val + p.val, hr⟩ rfl, node_block_entry V c t p _ ⟨5000 * t.val + p.val, hr⟩ rfl,
    wl_block_entry V c t, wr_block_entry V c t, bias_block_entry V c t]
  rfl

/-- An entry of the output array is in point `t`'s block when each coordinate is in the block's range on its axis. -/
theorem mem_blk (t : Fin cfg2.N) (i : S50000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v42).slice (win2_5.rect t)).set ↔ _
  rw [View.set_slice_whole, Rect.mem_set_unit]
  exact Iff.rfl

/-- Every entry of the output array is written back by some point: row `r` by point `r / 5000`. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, Nat.lt_of_lt_of_eq (by omega : (i 0).val / 5000 < 10) N_2.symm⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 256 ≤ (i 1).val ∧ (i 1).val < win2_5.index t (1 : Fin 2) * 256 + 256; omega

/-- The output array after the region's ten grid points is `G` of the arrays the region found at entry. -/
theorem final (c : Dev nD) : (dat2 (F := Ideal) V c).arrAt 5 cfg2.N = G V c :=
  (dat2 V c).arrAt_eq_of_cover 5 (G V c) (fun t _ => flushed_eq V c t) cover

end Cert.KernelIdeal.Region2

end
-- ==== Proof.Region3.lean ====
import proofs.«180406_j83794811945603_1_alg».proof.Proof.Gen.KernelIdeal.Frame
import proofs.«180406_j83794811945603_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-! ## The body's arithmetic at one entry

The matrix product of a `[5000, 256]` block with a `[256, 40]` matrix, read at entry `(p, q)`, is the sum over the
contracted index `j` of the block's entry `(p, j)` times the matrix's entry `(j, q)`. -/

/-- The left operand is read at the output's row. -/
theorem lhs_row (i : S5000x40.Idx) (q : dot_S5000x256_S256x40_S5000x40_1_0_0_1_n_n.contr.Idx) :
    (dot_S5000x256_S256x40_S5000x40_1_0_0_1_n_n.lhsIdx i q 0).val = (i 0).val := by
  unfold DotDims.lhsIdx
  rw [dif_neg (show ¬(0 : Fin S5000x256.rank) ∈ dot_S5000x256_S256x40_S5000x40_1_0_0_1_n_n.lhsBatch by decide), dif_pos (show (0 : Fin S5000x256.rank) ∈ dot_S5000x256_S256x40_S5000x40_1_0_0_1_n_n.lhsNonContracting by decide)]
  rfl
/-- The left operand is read at the contracted index along its columns. -/
theorem lhs_col (i : S5000x40.Idx) (q : dot_S5000x256_S256x40_S5000x40_1_0_0_1_n_n.contr.Idx) :
    (dot_S5000x256_S256x40_S5000x40_1_0_0_1_n_n.lhsIdx i q 1).val = (q ⟨0, by decide⟩).val :=
  dot_S5000x256_S256x40_S5000x40_1_0_0_1_n_n.lhsIdx_val_of_single rfl i q
/-- The right operand is read at the contracted index along its rows. -/
theorem rhs_row (i : S5000x40.Idx) (q : dot_S5000x256_S256x40_S5000x40_1_0_0_1_n_n.contr.Idx) :
    (dot_S5000x256_S256x40_S5000x40_1_0_0_1_n_n.rhsIdx i q 0).val = (q ⟨0, by decide⟩).val :=
  dot_S5000x256_S256x40_S5000x40_1_0_0_1_n_n.rhsIdx_val_of_single rfl i q
/-- The right operand is read at the output's column. -/
theorem rhs_col (i : S5000x40.Idx) (q : dot_S5000x256_S256x40_S5000x40_1_0_0_1_n_n.contr.Idx) :
    (dot_S5000x256_S256x40_S5000x40_1_0_0_1_n_n.rhsIdx i q 1).val = (i 1).val := by
  unfold DotDims.rhsIdx
  rw [dif_neg (show ¬(1 : Fin S256x40.rank) ∈ dot_S5000x256_S256x40_S5000x40_1_0_0_1_n_n.rhsBatch by decide), dif_pos (show (1 : Fin S256x40.rank) ∈ dot_S5000x256_S256x40_S5000x40_1_0_0_1_n_n.rhsNonContracting by decide)]
  rfl

/-- The product into a zero accumulator, at entry `(p, q)`: the exact sum over the 256 contracted indices. -/
theorem matmul_entry (a : FVec Ideal S5000x256 .bf16) (w : FVec Ideal S256x40 .bf16) (p : Fin 5000) (q : Fin 40) :
    matmul dot_S5000x256_S256x40_S5000x40_1_0_0_1_n_n none a w (constant (F := Ideal) S5000x40 .f32 0x00000000#32) (ix2 p q)
      = ∑ j : Fin 256, a (ix2 p j) * w (ix2 j q) := by
  show FloatOps.matmul dot_S5000x256_S256x40_S5000x40_1_0_0_1_n_n none a w (constant (F := Ideal) S5000x40 .f32 0x00000000#32) (ix2 p q) = _
  rw [Ideal.matmul_constant_zero_apply, ← Equiv.sum_comp (ValueIdx.contrEquiv1 dot_S5000x256_S256x40_S5000x40_1_0_0_1_n_n 256 rfl rfl).symm]
  refine Finset.sum_congr rfl fun k _ => ?_
  have hk := ValueIdx.contrEquiv1_symm_val dot_S5000x256_S256x40_S5000x40_1_0_0_1_n_n 256 rfl rfl k
  have el : dot_S5000x256_S256x40_S5000x40_1_0_0_1_n_n.lhsIdx (ix2 p q) ((ValueIdx.contrEquiv1 dot_S5000x256_S256x40_S5000x40_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x40_S5000x40_1_0_0_1_n_n.rhsIdx (ix2 p q) ((ValueIdx.contrEquiv1 dot_S5000x256_S256x40_S5000x40_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's value at entry `(p, q)` of the block: the mean block's row against the first weight matrix, plus the
    node block's row against the second, plus the bias row's entry. -/
theorem pay_entry (v0 v3 : Vec Ideal S5000x256 .f32) (v6 v8 : Vec Ideal S256x40 .f32) (v13 : Vec Ideal S1x40 .f32)
    (p : Fin 5000) (q : Fin 40) :
    k3_pay1 (F := Ideal) v0 v3 v6 v8 v13 (ix2 p q)
      = ((∑ j : Fin 256, v0 (ix2 p j) * v6 (ix2 j q)) + (∑ j : Fin 256, v3 (ix2 p j) * v8 (ix2 j q))) + v13 (ix2 (0 : Fin 1) q) := by
  unfold k3_pay1
  rw [addf_apply, addf_apply, matmul_entry, matmul_entry, broadcastTo_1b_ab_apply]
  simp only [shapeCast_self, truncf_apply]

variable (V : (c : Dev nD) → (b : Ref sig .tc) → Buf (Elt Ideal) ((c : Thread nD τ).loc b))

/-- What the fourth call leaves in its output array, as one function of the arrays it finds at entry: entry `(r, q)`
    is the SAGE entry of the mean array, the node array, the two weight matrices and the bias row (no floor). -/
def G (c : Dev nD) : S50000x40.Idx → EReal :=
  arr2 fun r q => sage (rows2 (V c main_v54 : S50000x256.Idx → EReal)) (rows2 (V c main_v42 : S50000x256.Idx → EReal))
    (rows2 (V c main_arg10 : S256x40.Idx → EReal)) (rows2 (V c main_arg12 : S256x40.Idx → EReal)) (row1 (V c main_v55 : S1x40.Idx → EReal)) r q

/-! ## From the blocks to the array -/

/-- The zero offset pair is the constant zero offset. -/
theorem hz : (![0, 0] : Fin 2 → Nat) = fun _ => 0 := funext fun a => by fin_cases a <;> rfl

/-- The printed index maps, decided once over the grid: the row-blocked windows (mean, node array, output) sit at block
    row `t` at point `t`, column block 0; the weight matrices and the bias row sit at block (0, 0) at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The mean window's block at point `t` is rows `5000 t … 5000 t + 4999` of the mean array. -/
theorem blk_mean (c : Dev nD) (t : Fin cfg3.N) (p : Fin 5000) (j : Fin 256) (r : Fin 50000) (hr : r.val = 5000 * t.val + p.val) :
    (iblk3 V c 0 t : Vec Ideal S5000x256 .f32) (ix2 p j) = (V c main_v54 : S50000x256.Idx → EReal) (ix2 r j) := by
  obtain ⟨e00, e01, -⟩ := idx_facts t
  unfold iblk3
  rw [View.read_apply]
  show V c main_v54 _ = V c main_v54 _
  congr 1
  funext a
  apply Fin.ext
  match a with
  | ⟨0, _⟩ => show win3_0.index t (0 : Fin 2) * 5000 + 1 * p.val = r.val; rw [e00, hr]; omega
  | ⟨1, _⟩ => show win3_0.index t (1 : Fin 2) * 256 + 1 * j.val = j.val; rw [e01]; omega

/-- The node window's block at point `t` is rows `5000 t … 5000 t + 4999` of the node array. -/
theorem blk_node (c : Dev nD) (t : Fin cfg3.N) (p : Fin 5000) (j : Fin 256) (r : Fin 50000) (hr : r.val = 5000 * t.val + p.val) :
    (iblk3 V c 1 t : Vec Ideal S5000x256 .f32) (ix2 p j) = (V c main_v42 : S50000x256.Idx → EReal) (ix2 r j) := by
  obtain ⟨-, -, e10, e11, -⟩ := idx_facts t
  unfold iblk3
  rw [View.read_apply]
  show V c main_v42 _ = V c main_v42 _
  congr 1
  funext a
  apply Fin.ext
  match a with
  | ⟨0, _⟩ => show win3_1.index t (0 : Fin 2) * 5000 + 1 * p.val = r.val; rw [e10, hr]; omega
  | ⟨1, _⟩ => show win3_1.index t (1 : Fin 2) * 256 + 1 * j.val = j.val; rw [e11]; omega

/-- The first weight window's block at every point is the whole first weight matrix. -/
theorem blk_wl (c : Dev nD) (t : Fin cfg3.N) (j : Fin 256) (q : Fin 40) :
    (iblk3 V c 2 t : Vec Ideal S256x40 .f32) (ix2 j q) = (V c main_arg10 : S256x40.Idx → EReal) (ix2 j q) := by
  obtain ⟨-, -, -, -, e20, e21, -⟩ := idx_facts t
  unfold iblk3
  rw [View.read_apply]
  show V c main_arg10 _ = V c main_arg10 _
  congr 1
  funext a
  apply Fin.ext
  match a with
  | ⟨0, _⟩ => show win3_2.index t (0 : Fin 2) * 256 + 1 * j.val = j.val; rw [e20]; omega
  | ⟨1, _⟩ => show win3_2.index t (1 : Fin 2) * 40 + 1 * q.val = q.val; rw [e21]; omega

/-- The second weight window's block at every point is the whole second weight matrix. -/
theorem blk_wr (c : Dev nD) (t : Fin cfg3.N) (j : Fin 256) (q : Fin 40) :
    (iblk3 V c 3 t : Vec Ideal S256x40 .f32) (ix2 j q) = (V c main_arg12 : S256x40.Idx → EReal) (ix2 j q) := by
  obtain ⟨-, -, -, -, -, -, e30, e31, -⟩ := idx_facts t
  unfold iblk3
  rw [View.read_apply]
  show V c main_arg12 _ = V c main_arg12 _
  congr 1
  funext a
  apply Fin.ext
  match a with
  | ⟨0, _⟩ => show win3_3.index t (0 : Fin 2) * 256 + 1 * j.val = j.val; rw [e30]; omega
  | ⟨1, _⟩ => show win3_3.index t (1 : Fin 2) * 40 + 1 * q.val = q.val; rw [e31]; omega

/-- The bias window's block at every point is the whole bias row. -/
theorem blk_bias (c : Dev nD) (t : Fin cfg3.N) (q : Fin 40) :
    (iblk3 V c 4 t : Vec Ideal S1x40 .f32) (ix2 (0 : Fin 1) q) = (V c main_v55 : S1x40.Idx → EReal) (ix2 (0 : Fin 1) q) := by
  obtain ⟨-, -, -, -, -, -, -, -, e40, e41, -⟩ := idx_facts t
  unfold iblk3
  rw [View.read_apply]
  show V c main_v55 _ = V c main_v55 _
  congr 1
  funext a
  apply Fin.ext
  match a with
  | ⟨0, _⟩ => show win3_4.index t (0 : Fin 2) * 1 + 1 * (0 : Fin 1).val = (0 : Fin 1).val; rw [e40]; rfl
  | ⟨1, _⟩ => show win3_4.index t (1 : Fin 2) * 40 + 1 * q.val = q.val; rw [e41]; omega

/-- The body's value at entry `(p, q)` of point `t`'s block is `G` at row `5000 t + p`, column `q`. -/
theorem block_entry (c : Dev nD) (t : Fin cfg3.N) (p : Fin 5000) (q : Fin 40) (r : Fin 50000) (hr : r.val = 5000 * t.val + p.val) :
    k3_pay1 (F := Ideal) (iblk3 V c 0 t) (iblk3 V c 1 t) (iblk3 V c 2 t) (iblk3 V c 3 t) (iblk3 V c 4 t) (ix2 p q) = G V c (ix2 r q) := by
  refine (pay_entry _ _ _ _ _ p q).trans ?_
  simp only [blk_mean V c t p _ r hr, blk_node V c t p _ r hr, blk_wl V c t, blk_wr V c t, blk_bias V c t]
  rfl

/-- What point `t` writes back is block `t` of `G` of the arrays the region found at entry. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x256) hz, View.ld_unit_zero (S := S256x40) hz, View.ld_unit_zero (S := S1x40) hz]
  funext j
  obtain ⟨p, q, rfl⟩ : ∃ (p : Fin 5000) (q : Fin 40), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = G V c (((cfg3.win 5).blk t).view.emb (ix2 p q))
  have ht : t.val < 10 := lt_of_lt_of_eq t.isLt N_3
  obtain ⟨-, -, -, -, -, -, -, -, -, -, e50, e51⟩ := idx_facts t
  rw [block_entry V c t p q ⟨5000 * t.val + p.val, by have := p.isLt; omega⟩ rfl]
  congr 1
  funext a
  apply Fin.ext
  match a with
  | ⟨0, _⟩ => show 5000 * t.val + p.val = win3_5.index t (0 : Fin 2) * 5000 + 1 * p.val; rw [e50]; omega
  | ⟨1, _⟩ => show q.val = win3_5.index t (1 : Fin 2) * 40 + 1 * q.val; rw [e51]; omega

/-- An entry of the output array lies in point `t`'s block iff each coordinate lies in the block's range on its axis. -/
theorem mem_blk (t : Fin cfg3.N) (i : S50000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v56).slice (win3_5.rect t)).set ↔ _
  rw [View.set_slice_whole, Rect.mem_set_unit]
  exact Iff.rfl

/-- The ten row blocks cover the output array: row `r` lies in the block of point `r / 5000`, which is written back. -/
theorem cover (i : S50000x40.Idx) :
    ∃ t : Fin cfg3.N, (cfg3.win 5).flush t = true ∧ i ∈ ((cfg3.win 5).blk t).view.set := by
  have hi0 : (i 0).val < 50000 := (i 0).isLt
  have hi1 : (i 1).val < 40 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, -, -, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e50, ht]; omega
  | ⟨1, _⟩ => show win3_5.index t (1 : Fin 2) * 40 ≤ (i 1).val ∧ (i 1).val < win3_5.index t (1 : Fin 2) * 40 + 40; rw [e51]; omega

/-- The output array after the region's ten grid points is `G` of the arrays the region found at entry. -/
theorem final (c : Dev nD) : (dat3 (F := Ideal) V c).arrAt 5 cfg3.N = G V c := by
  exact (dat3 V c).arrAt_eq_of_cover 5 (G V c) (fun t _ => flushed_eq V c t) cover

end Cert.KernelIdeal.Region3

end
-- ==== Proof.RefStages.lean ====
import proofs.«180406_j83794811945603_1_alg».proof.Proof.RefRead
import proofs.«180406_j83794811945603_1_alg».proof.Proof.Spec
import Idealize.ShloMosaic.Lib.ValueIdx
import Idealize.ShloMosaic.PureOps.Ideal.Laws

noncomputable section

namespace Cert.ReferenceIdeal.Stages

open Idealize.ShloMosaic Idealize.ShloMosaic.TcCoe Idealize.ShloMosaic.ValueIdx
open Cert.ReferenceIdeal Cert.ReferenceIdeal.ReadP Cert.Sage

variable (x0 : (⟨S50000x500, .f32⟩ : BufTy).Contents (Elt Ideal)) (x1 : (⟨S2x800000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x40, .f32⟩ : BufTy).Contents (Elt Ideal)) (x11 : (⟨S40, .f32⟩ : BufTy).Contents (Elt Ideal)) (x12 : (⟨S256x40, .f32⟩ : BufTy).Contents (Elt Ideal))

/-- The reference's projected features: entry `(r, q)` is the linear entry of the node features, the projection and the bias. -/
theorem h0_eq : val_main_v7 (F := Ideal) x0 x2 x3
    = arr2 (lin (rows2 (x0 : S50000x500.Idx → EReal)) (rows2 (x2 : S500x128.Idx → EReal)) (vec1 (x3 : S128.Idx → EReal))) := by
  funext i
  obtain ⟨r, q, rfl⟩ : ∃ (r : Fin 50000) (q : Fin 128), i = ix2 r q := ⟨i 0, i 1, eq_ix2 i⟩
  -- entry (r, q): the contraction over the 500 input features, plus the bias read through its two broadcasts
  rw [val_main_v7_apply, val_main_v4_apply, val_main_v6_apply, val_main_v5_apply]
  -- the contraction reads row r of the features against column q of the projection; the bias is read at q
  have el : ∀ k : Fin 500, lidx_main_v4 (ix2 r q) k = ix2 r k := fun k =>
    funext fun a => Fin.ext (by match a with | ⟨0, _⟩ => rfl | ⟨1, _⟩ => rfl)
  have er : ∀ k : Fin 500, ridx_main_v4 (ix2 r q) k = ix2 k q := fun k =>
    funext fun a => Fin.ext (by match a with | ⟨0, _⟩ => rfl | ⟨1, _⟩ => rfl)
  have eb : idx_main_v5 (idx_main_v6 (ix2 r q)) = ix1 q :=
    funext fun a => Fin.ext (by match a with | ⟨0, _⟩ => rfl)
  simp only [el, er, eb, Ideal.addf_def]
  rfl

/-- The reference's first layer: the SAGE entry of its mean and of the projected features, floored at zero. -/
theorem h1_eq : val_main_v33 (F := Ideal) x0 x1 x2 x3 x4 x5 x6
    = arr2 fun r q => max (sage (rows2 (val_main_v26 (F := Ideal) x0 x1 x2 x3 : S50000x128.Idx → EReal)) (rows2 (val_main_v7 (F := Ideal) x0 x2 x3 : S50000x128.Idx → EReal))
        (rows2 (x4 : S128x128.Idx → EReal)) (rows2 (x6 : S128x128.Idx → EReal)) (vec1 (x5 : S128.Idx → EReal)) r q) 0 := by
  funext i
  obtain ⟨r, q, rfl⟩ : ∃ (r : Fin 50000) (q : Fin 128), i = ix2 r q := ⟨i 0, i 1, eq_ix2 i⟩
  -- entry (r, q): (mean-term + bias) + own-term, floored at the zero constant broadcast to the whole array
  rw [val_main_v33_apply, val_main_v32_apply, val_main_v30_apply, val_main_v27_apply, val_main_v29_apply, val_main_v28_apply, val_main_v31_apply, val_main_call0_v0_apply, val_main_call0_cst_apply]
  have el : ∀ k : Fin 128, lidx_main_v27 (ix2 r q) k = ix2 r k := fun k =>
    funext fun a => Fin.ext (by match a with | ⟨0, _⟩ => rfl | ⟨1, _⟩ => rfl)
  have er : ∀ k : Fin 128, ridx_main_v27 (ix2 r q) k = ix2 k q := fun k =>
    funext fun a => Fin.ext (by match a with | ⟨0, _⟩ => rfl | ⟨1, _⟩ => rfl)
  have el' : ∀ k : Fin 128, lidx_main_v31 (ix2 r q) k = ix2 r k := fun k =>
    funext fun a => Fin.ext (by match a with | ⟨0, _⟩ => rfl | ⟨1, _⟩ => rfl)
  have er' : ∀ k : Fin 128, ridx_main_v31 (ix2 r q) k = ix2 k q := fun k =>
    funext fun a => Fin.ext (by match a with | ⟨0, _⟩ => rfl | ⟨1, _⟩ => rfl)
  have eb : idx_main_v28 (idx_main_v29 (ix2 r q)) = ix1 q :=
    funext fun a => Fin.ext (by match a with | ⟨0, _⟩ => rfl)
  simp only [el, er, el', er', eb, Ideal.addf_def, Ideal.maximumf_def, Ideal.ofBits_def, ofBits_zero]
  exact congrArg (fun t => max t 0)
    (sage_comm (rows2 (val_main_v26 (F := Ideal) x0 x1 x2 x3 : S50000x128.Idx → EReal)) (rows2 (val_main_v7 (F := Ideal) x0 x2 x3 : S50000x128.Idx → EReal))
      (rows2 (x4 : S128x128.Idx → EReal)) (rows2 (x6 : S128x128.Idx → EReal)) (vec1 (x5 : S128.Idx → EReal)) r q)

/-- The reference's second layer, likewise, over the first layer's output. -/
theorem h2_eq : val_main_v59 (F := Ideal) x0 x1 x2 x3 x4 x5 x6 x7 x8 x9
    = arr2 fun r q => max (sage (rows2 (val_main_v52 (F := Ideal) x0 x1 x2 x3 x4 x5 x6 : S50000x128.Idx → EReal)) (rows2 (val_main_v33 (F := Ideal) x0 x1 x2 x3 x4 x5 x6 : S50000x128.Idx → EReal))
        (rows2 (x7 : S128x256.Idx → EReal)) (rows2 (x9 : S128x256.Idx → EReal)) (vec1 (x8 : S256.Idx → EReal)) r q) 0 := by
  funext i
  obtain ⟨r, q, rfl⟩ : ∃ (r : Fin 50000) (q : Fin 256), i = ix2 r q := ⟨i 0, i 1, eq_ix2 i⟩
  -- entry (r, q): (mean-term + bias) + own-term, floored at the zero constant broadcast to the whole array
  rw [val_main_v59_apply, val_main_v58_apply, val_main_v56_apply, val_main_v53_apply, val_main_v55_apply, val_main_v54_apply, val_main_v57_apply, val_main_call1_v0_apply, val_main_call1_cst_apply]
  have el : ∀ k : Fin 128, lidx_main_v53 (ix2 r q) k = ix2 r k := fun k =>
    funext fun a => Fin.ext (by match a with | ⟨0, _⟩ => rfl | ⟨1, _⟩ => rfl)
  have er : ∀ k : Fin 128, ridx_main_v53 (ix2 r q) k = ix2 k q := fun k =>
    funext fun a => Fin.ext (by match a with | ⟨0, _⟩ => rfl | ⟨1, _⟩ => rfl)
  have el' : ∀ k : Fin 128, lidx_main_v57 (ix2 r q) k = ix2 r k := fun k =>
    funext fun a => Fin.ext (by match a with | ⟨0, _⟩ => rfl | ⟨1, _⟩ => rfl)
  have er' : ∀ k : Fin 128, ridx_main_v57 (ix2 r q) k = ix2 k q := fun k =>
    funext fun a => Fin.ext (by match a with | ⟨0, _⟩ => rfl | ⟨1, _⟩ => rfl)
  have eb : idx_main_v54 (idx_main_v55 (ix2 r q)) = ix1 q :=
    funext fun a => Fin.ext (by match a with | ⟨0, _⟩ => rfl)
  simp only [el, er, el', er', eb, Ideal.addf_def, Ideal.maximumf_def, Ideal.ofBits_def, ofBits_zero]
  exact congrArg (fun t => max t 0)
    (sage_comm (rows2 (val_main_v52 (F := Ideal) x0 x1 x2 x3 x4 x5 x6 : S50000x128.Idx → EReal)) (rows2 (val_main_v33 (F := Ideal) x0 x1 x2 x3 x4 x5 x6 : S50000x128.Idx → EReal))
      (rows2 (x7 : S128x256.Idx → EReal)) (rows2 (x9 : S128x256.Idx → EReal)) (vec1 (x8 : S256.Idx → EReal)) r q)

/-- The reference's third layer (no floor), over the second layer's output. -/
theorem h3_eq : val_main_v84 (F := Ideal) x0 x1 x2 x3 x4 x5 x6 x7 x8 x9 x10 x11 x12
    = arr2 fun r q => sage (rows2 (val_main_v78 (F := Ideal) x0 x1 x2 x3 x4 x5 x6 x7 x8 x9 : S50000x256.Idx → EReal)) (rows2 (val_main_v59 (F := Ideal) x0 x1 x2 x3 x4 x5 x6 x7 x8 x9 : S50000x256.Idx → EReal))
        (rows2 (x10 : S256x40.Idx → EReal)) (rows2 (x12 : S256x40.Idx → EReal)) (vec1 (x11 : S40.Idx → EReal)) r q := by
  funext i
  obtain ⟨r, q, rfl⟩ : ∃ (r : Fin 50000) (q : Fin 40), i = ix2 r q := ⟨i 0, i 1, eq_ix2 i⟩
  -- entry (r, q): (mean-term + bias) + own-term; the bias moves to the end by commutativity
  rw [val_main_v84_apply, val_main_v82_apply, val_main_v79_apply, val_main_v81_apply, val_main_v80_apply, val_main_v83_apply]
  have el : ∀ k : Fin 256, lidx_main_v79 (ix2 r q) k = ix2 r k := fun k =>
    funext fun a => Fin.ext (by match a with | ⟨0, _⟩ => rfl | ⟨1, _⟩ => rfl)
  have er : ∀ k : Fin 256, ridx_main_v79 (ix2 r q) k = ix2 k q := fun k =>
    funext fun a => Fin.ext (by match a with | ⟨0, _⟩ => rfl | ⟨1, _⟩ => rfl)
  have el' : ∀ k : Fin 256, lidx_main_v83 (ix2 r q) k = ix2 r k := fun k =>
    funext fun a => Fin.ext (by match a with | ⟨0, _⟩ => rfl | ⟨1, _⟩ => rfl)
  have er' : ∀ k : Fin 256, ridx_main_v83 (ix2 r q) k = ix2 k q := fun k =>
    funext fun a => Fin.ext (by match a with | ⟨0, _⟩ => rfl | ⟨1, _⟩ => rfl)
  have eb : idx_main_v80 (idx_main_v81 (ix2 r q)) = ix1 q :=
    funext fun a => Fin.ext (by match a with | ⟨0, _⟩ => rfl)
  simp only [el, er, el', er', eb, Ideal.addf_def]
  exact (sage_comm (rows2 (val_main_v78 (F := Ideal) x0 x1 x2 x3 x4 x5 x6 x7 x8 x9 : S50000x256.Idx → EReal)) (rows2 (val_main_v59 (F := Ideal) x0 x1 x2 x3 x4 x5 x6 x7 x8 x9 : S50000x256.Idx → EReal))
      (rows2 (x10 : S256x40.Idx → EReal)) (rows2 (x12 : S256x40.Idx → EReal)) (vec1 (x11 : S40.Idx → EReal)) r q)

end Cert.ReferenceIdeal.Stages

end
-- ==== Proof.MeanLaw.lean ====
import proofs.«180406_j83794811945603_1_alg».proof.Proof.Gen.KernelIdeal
import proofs.«180406_j83794811945603_1_alg».proof.Proof.RefRead
import proofs.«180406_j83794811945603_1_alg».proof.Proof.Spec
import Idealize.ShloMosaic.Lib.Pipeline.Value
import Idealize.ShloMosaic.Lib.ValueIdx
import Idealize.ShloMosaic.Lib.IdealHost

noncomputable section

namespace Cert.Sage.Mean

open Idealize.ShloMosaic Idealize.ShloMosaic.TcCoe Idealize.ShloMosaic.ValueIdx
open Cert.KernelIdeal Cert.KernelIdeal.Gen

/-- The source node of each edge, as the kernel's program reads it off the edge list: row 0. -/
def kSrc (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The destination node of each edge: row 1. -/
def kDst (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The kernel's column of reciprocals: one over each node's in-degree floored at one, the in-degree a scatter-add of
    ones over the destinations. -/
def kInv (x1 : (⟨S2x800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant S_ .f32 0x3F800000#32))
      (maximumf (F := Ideal)
        (Host.scatterAdd scatter_S50000_S800000x1_S800000_n_0_0_1
          (broadcastInDim S50000 ![] bcast_S_S50000 (constant S_ .f32 0x00000000#32))
          (broadcastInDim S800000x1 ![0] bcast_S800000_S800000x1_0 (kDst x1))
          (broadcastInDim S800000 ![] bcast_S_S800000 (constant S_ .f32 0x3F800000#32)))
        (broadcastInDim S50000 ![] bcast_S_S50000 (constant S_ .f32 0x3F800000#32))))

/-- The two programs read the sources off the edge list by the same slice and reshape. -/
theorem kSrc_eq (x1 : (⟨S2x800000, .i32⟩ : BufTy).Contents (Elt Ideal)) :
    kSrc x1 = Cert.ReferenceIdeal.ReadP.val_main_v1 (F := Ideal) x1 := by
  unfold kSrc Cert.ReferenceIdeal.ReadP.val_main_v1 Cert.ReferenceIdeal.ReadP.val_main_v0
  rfl

/-- … and the destinations. -/
theorem kDst_eq (x1 : (⟨S2x800000, .i32⟩ : BufTy).Contents (Elt Ideal)) :
    kDst x1 = Cert.ReferenceIdeal.ReadP.val_main_v3 (F := Ideal) x1 := by
  unfold kDst Cert.ReferenceIdeal.ReadP.val_main_v3 Cert.ReferenceIdeal.ReadP.val_main_v2
  rfl

/-- The kernel's in-degree: a scatter-add of ones over the destinations, starting from zero. -/
def kCnt (x1 : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (kDst x1))
    (broadcastInDim S800000 ![] bcast_S_S800000 (constant (F := Ideal) S_ .f32 0x3F800000#32))

/-- The reference's first in-degree is the same scatter-add over the same destinations. -/
theorem kCnt_eq1 (x1 : (⟨S2x800000, .i32⟩ : BufTy).Contents (Elt Ideal)) :
    kCnt x1 = Cert.ReferenceIdeal.ReadP.val_main_v21 (F := Ideal) x1 := by
  unfold kCnt
  rw [kDst_eq]
  unfold Cert.ReferenceIdeal.ReadP.val_main_v21 Cert.ReferenceIdeal.ReadP.val_main_v20 Cert.ReferenceIdeal.ReadP.val_main_v19
    Cert.ReferenceIdeal.ReadP.val_main_v18 Cert.ReferenceIdeal.ReadP.val_main_cst_1 Cert.ReferenceIdeal.ReadP.val_main_cst_2
  rfl

/-- The reference's second in-degree (it recomputes it: another name, the same value). -/
theorem kCnt_eq2 (x1 : (⟨S2x800000, .i32⟩ : BufTy).Contents (Elt Ideal)) :
    kCnt x1 = Cert.ReferenceIdeal.ReadP.val_main_v47 (F := Ideal) x1 := by
  unfold kCnt
  rw [kDst_eq]
  unfold Cert.ReferenceIdeal.ReadP.val_main_v47 Cert.ReferenceIdeal.ReadP.val_main_v46 Cert.ReferenceIdeal.ReadP.val_main_v45
    Cert.ReferenceIdeal.ReadP.val_main_v44 Cert.ReferenceIdeal.ReadP.val_main_cst_7 Cert.ReferenceIdeal.ReadP.val_main_cst_8
  rfl

/-- The reference's third in-degree (it recomputes it: another name, the same value). -/
theorem kCnt_eq3 (x1 : (⟨S2x800000, .i32⟩ : BufTy).Contents (Elt Ideal)) :
    kCnt x1 = Cert.ReferenceIdeal.ReadP.val_main_v73 (F := Ideal) x1 := by
  unfold kCnt
  rw [kDst_eq]
  unfold Cert.ReferenceIdeal.ReadP.val_main_v73 Cert.ReferenceIdeal.ReadP.val_main_v72 Cert.ReferenceIdeal.ReadP.val_main_v71
    Cert.ReferenceIdeal.ReadP.val_main_v70 Cert.ReferenceIdeal.ReadP.val_main_cst_13 Cert.ReferenceIdeal.ReadP.val_main_cst_14
  rfl

/-- The column of reciprocals at row `r`: one over the in-degree of `r` floored at one. -/
theorem kInv_apply (x1 : (⟨S2x800000, .i32⟩ : BufTy).Contents (Elt Ideal)) (r : Fin 50000) :
    kInv x1 (ix2 r (0 : Fin 1))
      = Ideal.div (Ideal.ofBits .f32 0x3F800000#32) (max (kCnt x1 (ix1 r)) (Ideal.ofBits .f32 0x3F800000#32)) := by
  unfold kInv kCnt
  rw [broadcastInDim_apply _ bcast_S50000_S50000x1_0 _ (ix2 r (0 : Fin 1)) (ix1 r) (fun a => match a with
    | ⟨0, _⟩ => by show r.val = if (50000 : Nat) = 1 then 0 else r.val; rw [if_neg (by decide)])]
  rw [hostDivf_apply, maximumf_apply, broadcastInDim_scalar_apply, constant_apply]

/-- The neighbour mean of the first layer: the aggregated sums times the column of reciprocals, broadcast along the
    features, is the aggregated sums divided by the reference's broadcast floored in-degree. -/
theorem mean1 (A : (⟨S50000x128, .f32⟩ : BufTy).Contents (Elt Ideal)) (x1 : (⟨S2x800000, .i32⟩ : BufTy).Contents (Elt Ideal)) :
    mulf (F := Ideal) A (broadcastInDim S50000x128 ![0, 1] bcast_S50000x1_S50000x128_0_1 (kInv x1))
      = Host.divf (F := Ideal) (s := S50000x128) (φ := .f32) A (Cert.ReferenceIdeal.ReadP.val_main_v25 (F := Ideal) x1) := by
  funext i
  obtain ⟨r, q, rfl⟩ : ∃ (r : Fin 50000) (q : Fin 128), i = ix2 r q := ⟨i 0, i 1, eq_ix2 i⟩
  -- entry (r, q): the sum times the reciprocal column read at (r, 0), against the sum over the floored count read at r
  rw [mulf_apply, hostDivf_apply,
    broadcastInDim_apply _ bcast_S50000x1_S50000x128_0_1 (kInv x1) (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl]),
    kInv_apply, kCnt_eq1,
    Cert.ReferenceIdeal.ReadP.val_main_v25_apply, Cert.ReferenceIdeal.ReadP.val_main_v24_apply, Cert.ReferenceIdeal.ReadP.val_main_v23_apply,
    Cert.ReferenceIdeal.ReadP.val_main_v22_apply, Cert.ReferenceIdeal.ReadP.val_main_cst_3_apply]
  have ej : Cert.ReferenceIdeal.ReadP.idx_main_v24 (Cert.ReferenceIdeal.ReadP.idx_main_v25 (ix2 r q)) = ix1 r :=
    funext fun a => Fin.ext (by match a with | ⟨0, _⟩ => rfl)
  rw [ej, Ideal.maximumf_def, Ideal.ofBits_def, ofBits_one]
  exact mean_law _ _

/-- The same for the second layer (the reference recomputes the in-degree: another name, the same value). -/
theorem mean2 (A : (⟨S50000x128, .f32⟩ : BufTy).Contents (Elt Ideal)) (x1 : (⟨S2x800000, .i32⟩ : BufTy).Contents (Elt Ideal)) :
    mulf (F := Ideal) A (broadcastInDim S50000x128 ![0, 1] bcast_S50000x1_S50000x128_0_1 (kInv x1))
      = Host.divf (F := Ideal) (s := S50000x128) (φ := .f32) A (Cert.ReferenceIdeal.ReadP.val_main_v51 (F := Ideal) x1) := by
  funext i
  obtain ⟨r, q, rfl⟩ : ∃ (r : Fin 50000) (q : Fin 128), i = ix2 r q := ⟨i 0, i 1, eq_ix2 i⟩
  -- entry (r, q): the sum times the reciprocal column read at (r, 0), against the sum over the floored count read at r
  rw [mulf_apply, hostDivf_apply,
    broadcastInDim_apply _ bcast_S50000x1_S50000x128_0_1 (kInv x1) (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl]),
    kInv_apply, kCnt_eq2,
    Cert.ReferenceIdeal.ReadP.val_main_v51_apply, Cert.ReferenceIdeal.ReadP.val_main_v50_apply, Cert.ReferenceIdeal.ReadP.val_main_v49_apply,
    Cert.ReferenceIdeal.ReadP.val_main_v48_apply, Cert.ReferenceIdeal.ReadP.val_main_cst_9_apply]
  have ej : Cert.ReferenceIdeal.ReadP.idx_main_v50 (Cert.ReferenceIdeal.ReadP.idx_main_v51 (ix2 r q)) = ix1 r :=
    funext fun a => Fin.ext (by match a with | ⟨0, _⟩ => rfl)
  rw [ej, Ideal.maximumf_def, Ideal.ofBits_def, ofBits_one]
  exact mean_law _ _

/-- The same for the third layer, over 256 features. -/
theorem mean3 (A : (⟨S50000x256, .f32⟩ : BufTy).Contents (Elt Ideal)) (x1 : (⟨S2x800000, .i32⟩ : BufTy).Contents (Elt Ideal)) :
    mulf (F := Ideal) A (broadcastInDim S50000x256 ![0, 1] bcast_S50000x1_S50000x256_0_1 (kInv x1))
      = Host.divf (F := Ideal) (s := S50000x256) (φ := .f32) A (Cert.ReferenceIdeal.ReadP.val_main_v77 (F := Ideal) x1) := by
  funext i
  obtain ⟨r, q, rfl⟩ : ∃ (r : Fin 50000) (q : Fin 256), i = ix2 r q := ⟨i 0, i 1, eq_ix2 i⟩
  -- entry (r, q): the sum times the reciprocal column read at (r, 0), against the sum over the floored count read at r
  rw [mulf_apply, hostDivf_apply,
    broadcastInDim_apply _ bcast_S50000x1_S50000x256_0_1 (kInv x1) (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl]),
    kInv_apply, kCnt_eq3,
    Cert.ReferenceIdeal.ReadP.val_main_v77_apply, Cert.ReferenceIdeal.ReadP.val_main_v76_apply, Cert.ReferenceIdeal.ReadP.val_main_v75_apply,
    Cert.ReferenceIdeal.ReadP.val_main_v74_apply, Cert.ReferenceIdeal.ReadP.val_main_cst_15_apply]
  have ej : Cert.ReferenceIdeal.ReadP.idx_main_v76 (Cert.ReferenceIdeal.ReadP.idx_main_v77 (ix2 r q)) = ix1 r :=
    funext fun a => Fin.ext (by match a with | ⟨0, _⟩ => rfl)
  rw [ej, Ideal.maximumf_def, Ideal.ofBits_def, ofBits_one]
  exact mean_law _ _

end Cert.Sage.Mean

end
-- ==== Proof.KernelFold.lean ====
/-
  The kernel program's buffers at each boundary of @main, walked from the launch to the last call's output.

  @main is nine segments: host stretches alternating with the four calls.  The generated frame names the buffer
  contents at each boundary as a fold (`W1` … `W9`): a host stretch applies its operations, a call replaces its output
  array by what its ten grid points wrote and leaves every other buffer alone.  Here each buffer a later segment reads is
  walked back to the arguments' launch contents: the edge lists and the reciprocal in-degree column are made once by
  the first stretch and never written again; each call's output array is the whole-array function of the arrays it
  found (Region0 … Region3), which is the reference's stage of the same number (RefStages) once the arrays it found are
  known to be the reference's earlier stages; and each neighbour mean is the reference's by the mean law, the gather and
  the scatter-add being the same operations on equal operands.
-/
import proofs.«180406_j83794811945603_1_alg».proof.Proof.Gen.KernelIdeal.Frame
import proofs.«180406_j83794811945603_1_alg».proof.Proof.Region0
import proofs.«180406_j83794811945603_1_alg».proof.Proof.Region1
import proofs.«180406_j83794811945603_1_alg».proof.Proof.Region2
import proofs.«180406_j83794811945603_1_alg».proof.Proof.Region3
import proofs.«180406_j83794811945603_1_alg».proof.Proof.RefStages
import proofs.«180406_j83794811945603_1_alg».proof.Proof.MeanLaw
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.SL.Sem Idealize.ShloMosaic.ValueIdx Idealize.ShloMosaic.StableHlo
open Cert.KernelIdeal Cert.KernelIdeal.Gen Cert.Sage

variable (m : (ℓ : Loc nD τ sig) → Buf (Elt Ideal) ℓ) (ρ : Dev nD → PrngReg) (c : Dev nD)

/-- Walk a buffer's contents back through the host stretches and the regions that do not write it, down to the
    operations that made it. -/
local macro "walk" : tactic => `(tactic| (
  repeat (first
    | rw [W8_of_ne _ _ _ _ (by decide)]
    | rw [W6_of_ne _ _ _ _ (by decide)]
    | rw [W4_of_ne _ _ _ _ (by decide)]
    | rw [W2_of_ne _ _ _ _ (by decide)]
    | (show StableHlo.after _ _ _ = _; after_results))
  try rfl))

/-- The bias row a reshape makes of a bias vector has the vector's entries. -/
theorem row1_reshape {d : ℕ} (b : (⟨1, ![d]⟩ : Shape).Idx → EReal) (h : (⟨1, ![d]⟩ : Shape).ShapeCasts ⟨2, ![1, d]⟩) :
    row1 (shapeCast (⟨2, ![1, d]⟩ : Shape) b h) = vec1 b := by
  funext q
  show shapeCast (⟨2, ![1, d]⟩ : Shape) b h (ix2 (0 : Fin 1) q) = b (ix1 q)
  rw [shapeCast_addUnit_apply]
  congr 1
  funext a
  match a with
  | ⟨0, _⟩ => rfl

/-! ## What the buffers hold when the first call is entered -/

theorem W1_arg0 : W1 m ρ c (Proc.devRef .tc main_arg0) = (m ((c : Thread nD τ).loc main_arg0)) := by walk
theorem W1_arg2 : W1 m ρ c (Proc.devRef .tc main_arg2) = (m ((c : Thread nD τ).loc main_arg2)) := by walk
theorem W1_v13 : W1 m ρ c (Proc.devRef .tc main_v13) = shapeCast S1x128 (m ((c : Thread nD τ).loc main_arg3)) shapeCasts_S128_S1x128 := by walk

/-! ## … and after it: the projected features, and what later stretches read -/

theorem W2_v1 : W2 m ρ c (Proc.devRef .tc main_v1) = Mean.kSrc (m ((c : Thread nD τ).loc main_arg1)) := by walk
theorem W2_v3 : W2 m ρ c (Proc.devRef .tc main_v3) = Mean.kDst (m ((c : Thread nD τ).loc main_arg1)) := by walk
theorem W2_v12 : W2 m ρ c (Proc.devRef .tc main_v12) = Mean.kInv (m ((c : Thread nD τ).loc main_arg1)) := by walk
theorem W2_arg4 : W2 m ρ c (Proc.devRef .tc main_arg4) = (m ((c : Thread nD τ).loc main_arg4)) := by walk
theorem W2_arg5 : W2 m ρ c (Proc.devRef .tc main_arg5) = (m ((c : Thread nD τ).loc main_arg5)) := by walk
theorem W2_arg6 : W2 m ρ c (Proc.devRef .tc main_arg6) = (m ((c : Thread nD τ).loc main_arg6)) := by walk
theorem W2_arg7 : W2 m ρ c (Proc.devRef .tc main_arg7) = (m ((c : Thread nD τ).loc main_arg7)) := by walk
theorem W2_arg8 : W2 m ρ c (Proc.devRef .tc main_arg8) = (m ((c : Thread nD τ).loc main_arg8)) := by walk
theorem W2_arg9 : W2 m ρ c (Proc.devRef .tc main_arg9) = (m ((c : Thread nD τ).loc main_arg9)) := by walk
theorem W2_arg10 : W2 m ρ c (Proc.devRef .tc main_arg10) = (m ((c : Thread nD τ).loc main_arg10)) := by walk
theorem W2_arg11 : W2 m ρ c (Proc.devRef .tc main_arg11) = (m ((c : Thread nD τ).loc main_arg11)) := by walk
theorem W2_arg12 : W2 m ρ c (Proc.devRef .tc main_arg12) = (m ((c : Thread nD τ).loc main_arg12)) := by walk

theorem W2_v14 : W2 m ρ c (Proc.devRef .tc main_v14) = Cert.ReferenceIdeal.ReadP.val_main_v7 (F := Ideal) (m ((c : Thread nD τ).loc main_arg0)) (m ((c : Thread nD τ).loc main_arg2)) (m ((c : Thread nD τ).loc main_arg3)) := by
  refine (W2_arr m ρ c 3).trans ?_
  rw [Region0.final, Cert.ReferenceIdeal.Stages.h0_eq]
  unfold Region0.G
  have e0 : V1 m ρ c main_arg0 = (m ((c : Thread nD τ).loc main_arg0)) := W1_arg0 m ρ c
  have e2 : V1 m ρ c main_arg2 = (m ((c : Thread nD τ).loc main_arg2)) := W1_arg2 m ρ c
  have e13 : V1 m ρ c main_v13 = shapeCast S1x128 (m ((c : Thread nD τ).loc main_arg3)) shapeCasts_S128_S1x128 := W1_v13 m ρ c
  rw [e0, e2, e13, row1_reshape]

/-! ## SAGE layer 1 -/

set_option maxHeartbeats 1000000 in
theorem W3_v26 : W3 m ρ c (Proc.devRef .tc main_v26) = Cert.ReferenceIdeal.ReadP.val_main_v26 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v26) = _
  after_results_simp
  rw [W2_v14 m ρ c, W2_v1 m ρ c, W2_v3 m ρ c, W2_v12 m ρ c, Mean.mean1, Mean.kSrc_eq, Mean.kDst_eq]
  rfl
theorem W3_v14 : W3 m ρ c (Proc.devRef .tc main_v14) = Cert.ReferenceIdeal.ReadP.val_main_v7 (F := Ideal) (m ((c : Thread nD τ).loc main_arg0)) (m ((c : Thread nD τ).loc main_arg2)) (m ((c : Thread nD τ).loc main_arg3)) := by
  show StableHlo.after hostOps1 (W2 m ρ c) (Proc.devRef .tc main_v14) = _
  after_results
  exact W2_v14 m ρ c
theorem W3_arg4 : W3 m ρ c (Proc.devRef .tc main_arg4) = (m ((c : Thread nD τ).loc main_arg4)) := by
  show StableHlo.after hostOps1 (W2 m ρ c) (Proc.devRef .tc main_arg4) = _
  after_results
  exact W2_arg4 m ρ c
theorem W3_arg6 : W3 m ρ c (Proc.devRef .tc main_arg6) = (m ((c : Thread nD τ).loc main_arg6)) := by
  show StableHlo.after hostOps1 (W2 m ρ c) (Proc.devRef .tc main_arg6) = _
  after_results
  exact W2_arg6 m ρ c
theorem W3_v27 : W3 m ρ c (Proc.devRef .tc main_v27) = shapeCast S1x128 (m ((c : Thread nD τ).loc main_arg5)) shapeCasts_S128_S1x128 := by
  show StableHlo.after hostOps1 (W2 m ρ c) (Proc.devRef .tc main_v27) = _
  after_results
  rw [W2_arg5]
  rfl

theorem W4_v28 : W4 m ρ c (Proc.devRef .tc main_v28) = Cert.ReferenceIdeal.ReadP.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [Region1.final, Cert.ReferenceIdeal.Stages.h1_eq]
  unfold Region1.G
  have e0 : V3 m ρ c main_v26 = Cert.ReferenceIdeal.ReadP.val_main_v26 (F := Ideal) (m ((c : Thread nD τ).loc main_arg0)) (m ((c : Thread nD τ).loc main_arg1)) (m ((c : Thread nD τ).loc main_arg2)) (m ((c : Thread nD τ).loc main_arg3)) := W3_v26 m ρ c
  have e1 : V3 m ρ c main_v14 = Cert.ReferenceIdeal.ReadP.val_main_v7 (F := Ideal) (m ((c : Thread nD τ).loc main_arg0)) (m ((c : Thread nD τ).loc main_arg2)) (m ((c : Thread nD τ).loc main_arg3)) := W3_v14 m ρ c
  have e2 : V3 m ρ c main_arg4 = (m ((c : Thread nD τ).loc main_arg4)) := W3_arg4 m ρ c
  have e3 : V3 m ρ c main_arg6 = (m ((c : Thread nD τ).loc main_arg6)) := W3_arg6 m ρ c
  have e4 : V3 m ρ c main_v27 = shapeCast S1x128 (m ((c : Thread nD τ).loc main_arg5)) shapeCasts_S128_S1x128 := W3_v27 m ρ c
  rw [e0, e1, e2, e3, e4, row1_reshape]

theorem W4_v1 : W4 m ρ c (Proc.devRef .tc main_v1) = Mean.kSrc (m ((c : Thread nD τ).loc main_arg1)) := by walk
theorem W4_v3 : W4 m ρ c (Proc.devRef .tc main_v3) = Mean.kDst (m ((c : Thread nD τ).loc main_arg1)) := by walk
theorem W4_v12 : W4 m ρ c (Proc.devRef .tc main_v12) = Mean.kInv (m ((c : Thread nD τ).loc main_arg1)) := by walk
theorem W4_arg7 : W4 m ρ c (Proc.devRef .tc main_arg7) = (m ((c : Thread nD τ).loc main_arg7)) := by walk
theorem W4_arg8 : W4 m ρ c (Proc.devRef .tc main_arg8) = (m ((c : Thread nD τ).loc main_arg8)) := by walk
theorem W4_arg9 : W4 m ρ c (Proc.devRef .tc main_arg9) = (m ((c : Thread nD τ).loc main_arg9)) := by walk
theorem W4_arg10 : W4 m ρ c (Proc.devRef .tc main_arg10) = (m ((c : Thread nD τ).loc main_arg10)) := by walk
theorem W4_arg11 : W4 m ρ c (Proc.devRef .tc main_arg11) = (m ((c : Thread nD τ).loc main_arg11)) := by walk
theorem W4_arg12 : W4 m ρ c (Proc.devRef .tc main_arg12) = (m ((c : Thread nD τ).loc main_arg12)) := by walk

/-! ## SAGE layer 2 -/

set_option maxHeartbeats 1000000 in
theorem W5_v40 : W5 m ρ c (Proc.devRef .tc main_v40) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v40) = _
  after_results_simp
  rw [W4_v28 m ρ c, W4_v1 m ρ c, W4_v3 m ρ c, W4_v12 m ρ c, Mean.mean2, Mean.kSrc_eq, Mean.kDst_eq]
  rfl
theorem W5_v28 : W5 m ρ c (Proc.devRef .tc main_v28) = Cert.ReferenceIdeal.ReadP.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v28) = _
  after_results
  exact W4_v28 m ρ c
theorem W5_arg7 : W5 m ρ c (Proc.devRef .tc main_arg7) = (m ((c : Thread nD τ).loc main_arg7)) := by
  show StableHlo.after hostOps2 (W4 m ρ c) (Proc.devRef .tc main_arg7) = _
  after_results
  exact W4_arg7 m ρ c
theorem W5_arg9 : W5 m ρ c (Proc.devRef .tc main_arg9) = (m ((c : Thread nD τ).loc main_arg9)) := by
  show StableHlo.after hostOps2 (W4 m ρ c) (Proc.devRef .tc main_arg9) = _
  after_results
  exact W4_arg9 m ρ c
theorem W5_v41 : W5 m ρ c (Proc.devRef .tc main_v41) = shapeCast S1x256 (m ((c : Thread nD τ).loc main_arg8)) shapeCasts_S256_S1x256 := by
  show StableHlo.after hostOps2 (W4 m ρ c) (Proc.devRef .tc main_v41) = _
  after_results
  rw [W4_arg8]
  rfl

theorem W6_v42 : W6 m ρ c (Proc.devRef .tc main_v42) = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  rw [Region2.final, Cert.ReferenceIdeal.Stages.h2_eq]
  unfold Region2.G
  have e0 : V5 m ρ c main_v40 = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := W5_v40 m ρ c
  have e1 : V5 m ρ c main_v28 = Cert.ReferenceIdeal.ReadP.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := W5_v28 m ρ c
  have e2 : V5 m ρ c main_arg7 = (m ((c : Thread nD τ).loc main_arg7)) := W5_arg7 m ρ c
  have e3 : V5 m ρ c main_arg9 = (m ((c : Thread nD τ).loc main_arg9)) := W5_arg9 m ρ c
  have e4 : V5 m ρ c main_v41 = shapeCast S1x256 (m ((c : Thread nD τ).loc main_arg8)) shapeCasts_S256_S1x256 := W5_v41 m ρ c
  rw [e0, e1, e2, e3, e4, row1_reshape]

theorem W6_v1 : W6 m ρ c (Proc.devRef .tc main_v1) = Mean.kSrc (m ((c : Thread nD τ).loc main_arg1)) := by walk
theorem W6_v3 : W6 m ρ c (Proc.devRef .tc main_v3) = Mean.kDst (m ((c : Thread nD τ).loc main_arg1)) := by walk
theorem W6_v12 : W6 m ρ c (Proc.devRef .tc main_v12) = Mean.kInv (m ((c : Thread nD τ).loc main_arg1)) := by walk
theorem W6_arg10 : W6 m ρ c (Proc.devRef .tc main_arg10) = (m ((c : Thread nD τ).loc main_arg10)) := by walk
theorem W6_arg11 : W6 m ρ c (Proc.devRef .tc main_arg11) = (m ((c : Thread nD τ).loc main_arg11)) := by walk
theorem W6_arg12 : W6 m ρ c (Proc.devRef .tc main_arg12) = (m ((c : Thread nD τ).loc main_arg12)) := by walk

/-! ## SAGE layer 3 -/

set_option maxHeartbeats 1000000 in
theorem W7_v54 : W7 m ρ c (Proc.devRef .tc main_v54) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v54) = _
  after_results_simp
  rw [W6_v42 m ρ c, W6_v1 m ρ c, W6_v3 m ρ c, W6_v12 m ρ c, Mean.mean3, Mean.kSrc_eq, Mean.kDst_eq]
  rfl
theorem W7_v42 : W7 m ρ c (Proc.devRef .tc main_v42) = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v42) = _
  after_results
  exact W6_v42 m ρ c
theorem W7_arg10 : W7 m ρ c (Proc.devRef .tc main_arg10) = (m ((c : Thread nD τ).loc main_arg10)) := by
  show StableHlo.after hostOps3 (W6 m ρ c) (Proc.devRef .tc main_arg10) = _
  after_results
  exact W6_arg10 m ρ c
theorem W7_arg12 : W7 m ρ c (Proc.devRef .tc main_arg12) = (m ((c : Thread nD τ).loc main_arg12)) := by
  show StableHlo.after hostOps3 (W6 m ρ c) (Proc.devRef .tc main_arg12) = _
  after_results
  exact W6_arg12 m ρ c
theorem W7_v55 : W7 m ρ c (Proc.devRef .tc main_v55) = shapeCast S1x40 (m ((c : Thread nD τ).loc main_arg11)) shapeCasts_S40_S1x40 := by
  show StableHlo.after hostOps3 (W6 m ρ c) (Proc.devRef .tc main_v55) = _
  after_results
  rw [W6_arg11]
  rfl

theorem W8_v56 : W8 m ρ c (Proc.devRef .tc main_v56) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 5).trans ?_
  rw [Region3.final, Cert.ReferenceIdeal.Stages.h3_eq]
  unfold Region3.G
  have e0 : V7 m ρ c main_v54 = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := W7_v54 m ρ c
  have e1 : V7 m ρ c main_v42 = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := W7_v42 m ρ c
  have e2 : V7 m ρ c main_arg10 = (m ((c : Thread nD τ).loc main_arg10)) := W7_arg10 m ρ c
  have e3 : V7 m ρ c main_arg12 = (m ((c : Thread nD τ).loc main_arg12)) := W7_arg12 m ρ c
  have e4 : V7 m ρ c main_v55 = shapeCast S1x40 (m ((c : Thread nD τ).loc main_arg11)) shapeCasts_S40_S1x40 := W7_v55 m ρ c
  rw [e0, e1, e2, e3, e4, row1_reshape]

end Cert.KernelIdeal.Fold

end
-- ==== Proof.KernelTail.lean ====
/-
  The closing log-softmax: the same chain of host operations in both programs, stated once as a function of the
  array it is applied to, so that neither program's chain is compared against the other while that array is a large term.
-/
import proofs.«180406_j83794811945603_1_alg».proof.Proof.KernelFold

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-- A cast along a type equal to itself is the identity, as a propositional equation (so that rewriting with it leaves
    no definitional step behind). -/
theorem cast_self {α : Sort _} (h : α = α) (a : α) : cast h a = a := eq_of_heq (cast_heq h a)

/-- A row's entries shifted by the row's maximum (the maximum taken from minus infinity). -/
def shifted (z : (⟨S50000x40, .f32⟩ : BufTy).Contents (Elt Ideal)) : (⟨S50000x40, .f32⟩ : BufTy).Contents (Elt Ideal) :=
  subf (F := Ideal) z (broadcastInDim S50000x40 ![0, 1] bcast_S50000x1_S50000x40_0_1
    (broadcastInDim S50000x1 ![0] bcast_S50000_S50000x1_0
      (maximumf (F := Ideal) (broadcastInDim S50000 ![] bcast_S_S50000 (constant S_ .f32 0xFF800000#32))
        (Host.reduce FloatOps.maximumf z (constant S_ .f32 0xFF800000#32) reducesTo_S50000x40_S50000_d1 h_S_))))

/-- Log-softmax along the classes: the shifted entries minus the logarithm of the row's sum of their exponentials. -/
def logSoftmax (z : (⟨S50000x40, .f32⟩ : BufTy).Contents (Elt Ideal)) : (⟨S50000x40, .f32⟩ : BufTy).Contents (Elt Ideal) :=
  subf (F := Ideal) (shifted z) (broadcastInDim S50000x40 ![0, 1] bcast_S50000x1_S50000x40_0_1
    (Host.log (F := Ideal) (broadcastInDim S50000x1 ![0] bcast_S50000_S50000x1_0
      (Host.reduceAdd (F := Ideal) (Host.exp (F := Ideal) (shifted z)) (constant S_ .f32 0x00000000#32) reducesTo_S50000x40_S50000_d1 h_S_))))

/-- The kernel program's last host stretch leaves the log-softmax of the last call's output in the result buffer,
    whatever the buffers held before it. -/
theorem tail_kernel (W : Valuation τ sig (Elt Ideal)) :
    StableHlo.after hostOps4 W (Proc.devRef .tc main_v57) = logSoftmax (W (Proc.devRef .tc main_v56)) := by
  after_results_simp
  simp only [TRef.ofBuf, TRef.toBuf, cast_self]
  rfl

/-- The reference's last stage is the log-softmax of its last layer's stage. -/
theorem tail_reference (x0 : (⟨S50000x500, .f32⟩ : BufTy).Contents (Elt Ideal)) (x1 : (⟨S2x800000, .i32⟩ : BufTy).Contents (Elt Ideal)) (x2 : (⟨S500x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x40, .f32⟩ : BufTy).Contents (Elt Ideal)) (x11 : (⟨S40, .f32⟩ : BufTy).Contents (Elt Ideal)) (x12 : (⟨S256x40, .f32⟩ : BufTy).Contents (Elt Ideal)) :
    Cert.ReferenceIdeal.ReadP.val_main_v85 (F := Ideal) x0 x1 x2 x3 x4 x5 x6 x7 x8 x9 x10 x11 x12 = logSoftmax (Cert.ReferenceIdeal.ReadP.val_main_v84 (F := Ideal) x0 x1 x2 x3 x4 x5 x6 x7 x8 x9 x10 x11 x12) := by
  unfold Cert.ReferenceIdeal.ReadP.val_main_v85 Cert.ReferenceIdeal.ReadP.val_main_call2_v10 Cert.ReferenceIdeal.ReadP.val_main_call2_v9 Cert.ReferenceIdeal.ReadP.val_main_call2_v8 Cert.ReferenceIdeal.ReadP.val_main_call2_v7 Cert.ReferenceIdeal.ReadP.val_main_call2_cst_1 Cert.ReferenceIdeal.ReadP.val_main_call2_v6 Cert.ReferenceIdeal.ReadP.val_main_call2_v5 Cert.ReferenceIdeal.ReadP.val_main_call2_v4 Cert.ReferenceIdeal.ReadP.val_main_call2_v3 Cert.ReferenceIdeal.ReadP.val_main_call2_v2 Cert.ReferenceIdeal.ReadP.val_main_call2_v1 Cert.ReferenceIdeal.ReadP.val_main_call2_cst_0 Cert.ReferenceIdeal.ReadP.val_main_call2_v0 Cert.ReferenceIdeal.ReadP.val_main_call2_cst
  generalize Cert.ReferenceIdeal.ReadP.val_main_v84 (F := Ideal) x0 x1 x2 x3 x4 x5 x6 x7 x8 x9 x10 x11 x12 = z
  rfl

variable (m : (ℓ : Loc nD τ sig) → Buf (Elt Ideal) ℓ) (ρ : Dev nD → PrngReg) (c : Dev nD)

/-- The result buffer after the last host stretch is the reference's last stage of the arguments' launch contents. -/
theorem result_eq : W9 m ρ c (Proc.devRef .tc main_v57) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps4 (W8 m ρ c) (Proc.devRef .tc main_v57) = _
  rw [tail_kernel, Cert.KernelIdeal.Fold.W8_v56 m ρ c, tail_reference]

end Cert.KernelIdeal.Tail

end
-- ==== Proof.RefRunThm.lean ====
import proofs.«180406_j83794811945603_1_alg».proof.Proof.RefRead
import Idealize.ShloMosaic.Lib.StableHlo.Run

noncomputable section

namespace Cert.ReferenceIdeal.RunThm

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A transport along an equation between a type and itself is the identity. -/
theorem cast_self {α : Sort _} (h : α = α) (a : α) : cast h a = a := eq_of_heq (cast_heq h a)

/-- The contents after two lists of operations run one after the other: those after the second, from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The operation list, cut into eight consecutive stretches

Each stretch ends where a value that later operations read is complete: the input projection `%7`, the three mean
aggregations `%26`, `%52`, `%78`, the two rectified layers `%33`, `%59`, the last layer's sum `%84`, and the log-softmax `%85`. -/

/-- `%0` … `%7`: the two index rows of the edge list and the input projection. -/
abbrev s0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x500_S500x128_S50000x128_1_0_0_1_n_n none l r) : (⟨S50000x500, .f32⟩ : BufTy).Contents (Elt F) → (⟨S500x128, .f32⟩ : BufTy).Contents (Elt F) → (⟨S50000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)) ]

/-- `%c` … `%26`: the first mean aggregation over the neighbours. -/
abbrev s1 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v7 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v18 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v19 (broadcastInDim S50000 ![] bcast_S_S50000 : (⟨S_, .f32⟩ : BufTy).Contents (Elt F) → (⟨S50000, .f32⟩ : BufTy).Contents (Elt F)),
    unary main_v3 main_v20 (broadcastInDim S800000x1 ![0] bcast_S800000_S800000x1_0 : (⟨S800000, .i32⟩ : BufTy).Contents (Elt F) → (⟨S800000x1, .i32⟩ : BufTy).Contents (Elt F)),
    ternary main_v19 main_v20 main_v18 main_v21 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v22 (broadcastInDim S50000 ![] bcast_S_S50000 : (⟨S_, .f32⟩ : BufTy).Contents (Elt F) → (⟨S50000, .f32⟩ : BufTy).Contents (Elt F)),
    binary main_v21 main_v22 main_v23 (maximumf : (⟨S50000, .f32⟩ : BufTy).Contents (Elt F) → (⟨S50000, .f32⟩ : BufTy).Contents (Elt F) → (⟨S50000, .f32⟩ : BufTy).Contents (Elt F)),
    unary main_v23 main_v24 (broadcastInDim S50000x1 ![0] bcast_S50000_S50000x1_0 : (⟨S50000, .f32⟩ : BufTy).Contents (Elt F) → (⟨S50000x1, .f32⟩ : BufTy).Contents (Elt F)),
    unary main_v24 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (Host.divf : (⟨S50000x128, .f32⟩ : BufTy).Contents (Elt F) → (⟨S50000x128, .f32⟩ : BufTy).Contents (Elt F) → (⟨S50000x128, .f32⟩ : BufTy).Contents (Elt F)) ]

/-- `%27` … `%33`: the first layer's two products, their sum and its rectification. -/
abbrev s2 : List (HloOp τ sig (Elt F)) :=
  [ binary main_v26 main_arg4 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    binary main_v7 main_arg6 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v30 main_v31 main_v32 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v32) (TRef.of (T := ⟨S50000x128, .f32⟩) main_call0_v0) (TRef.of (T := ⟨S50000x128, .f32⟩) main_v33) maximumf ]

/-- `%c_4` … `%52`: the second mean aggregation. -/
abbrev s3 : List (HloOp τ sig (Elt F)) :=
  [ nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v33 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v41 (broadcastInDim S50000x128 ![] bcast_S_S50000x128 : (⟨S_, .f32⟩ : BufTy).Contents (Elt F) → (⟨S50000x128, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v44 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v45 (broadcastInDim S50000 ![] bcast_S_S50000 : (⟨S_, .f32⟩ : BufTy).Contents (Elt F) → (⟨S50000, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v43 main_v51 main_v52 (Host.divf : (⟨S50000x128, .f32⟩ : BufTy).Contents (Elt F) → (⟨S50000x128, .f32⟩ : BufTy).Contents (Elt F) → (⟨S50000x128, .f32⟩ : BufTy).Contents (Elt F)) ]

/-- `%53` … `%59`: the second layer. -/
abbrev s4 : List (HloOp τ sig (Elt F)) :=
  [ binary main_v52 main_arg7 main_v53 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v54 (broadcastInDim S1x256 ![1] bcast_S256_S1x256_1 : (⟨S256, .f32⟩ : BufTy).Contents (Elt F) → (⟨S1x256, .f32⟩ : BufTy).Contents (Elt F)),
    unary main_v54 main_v55 (broadcastInDim S50000x256 ![0, 1] bcast_S1x256_S50000x256_0_1 : (⟨S1x256, .f32⟩ : BufTy).Contents (Elt F) → (⟨S50000x256, .f32⟩ : BufTy).Contents (Elt F)),
    binary main_v53 main_v55 main_v56 (addf : (⟨S50000x256, .f32⟩ : BufTy).Contents (Elt F) → (⟨S50000x256, .f32⟩ : BufTy).Contents (Elt F) → (⟨S50000x256, .f32⟩ : BufTy).Contents (Elt F)),
    binary main_v33 main_arg9 main_v57 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v56 main_v57 main_v58 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v58) (TRef.of (T := ⟨S50000x256, .f32⟩) main_call1_v0) (TRef.of (T := ⟨S50000x256, .f32⟩) main_v59) maximumf ]

/-- `%c_10` … `%78`: the third mean aggregation. -/
abbrev s5 : List (HloOp τ sig (Elt F)) :=
  [ nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_v1 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_v1 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_v1 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v67 (broadcastInDim S50000x256 ![] bcast_S_S50000x256 : (⟨S_, .f32⟩ : BufTy).Contents (Elt F) → (⟨S50000x256, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_13 (constant S_ .f32 0x3F800000#32),
    unary main_cst_13 main_v70 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v71 (broadcastInDim S50000 ![] bcast_S_S50000 : (⟨S_, .f32⟩ : BufTy).Contents (Elt F) → (⟨S50000, .f32⟩ : BufTy).Contents (Elt F)),
    unary main_v3 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v74 (broadcastInDim S50000 ![] bcast_S_S50000 : (⟨S_, .f32⟩ : BufTy).Contents (Elt F) → (⟨S50000, .f32⟩ : BufTy).Contents (Elt F)),
    binary main_v73 main_v74 main_v75 (maximumf : (⟨S50000, .f32⟩ : BufTy).Contents (Elt F) → (⟨S50000, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    unary main_v76 main_v77 (broadcastInDim S50000x256 ![0, 1] bcast_S50000x1_S50000x256_0_1 : (⟨S50000x1, .f32⟩ : BufTy).Contents (Elt F) → (⟨S50000x256, .f32⟩ : BufTy).Contents (Elt F)),
    binary main_v69 main_v77 main_v78 (Host.divf : (⟨S50000x256, .f32⟩ : BufTy).Contents (Elt F) → (⟨S50000x256, .f32⟩ : BufTy).Contents (Elt F) → (⟨S50000x256, .f32⟩ : BufTy).Contents (Elt F)) ]

/-- `%79` … `%84`: the third layer's sum. -/
abbrev s6 : List (HloOp τ sig (Elt F)) :=
  [ binary main_v78 main_arg10 main_v79 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg11 main_v80 (broadcastInDim S1x40 ![1] bcast_S40_S1x40_1 : (⟨S40, .f32⟩ : BufTy).Contents (Elt F) → (⟨S1x40, .f32⟩ : BufTy).Contents (Elt F)),
    unary main_v80 main_v81 (broadcastInDim S50000x40 ![0, 1] bcast_S1x40_S50000x40_0_1 : (⟨S1x40, .f32⟩ : BufTy).Contents (Elt F) → (⟨S50000x40, .f32⟩ : BufTy).Contents (Elt F)),
    binary main_v79 main_v81 main_v82 (addf : (⟨S50000x40, .f32⟩ : BufTy).Contents (Elt F) → (⟨S50000x40, .f32⟩ : BufTy).Contents (Elt F) → (⟨S50000x40, .f32⟩ : BufTy).Contents (Elt F)),
    binary main_v59 main_arg12 main_v83 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v82 main_v83 main_v84 (addf : (⟨S50000x40, .f32⟩ : BufTy).Contents (Elt F) → (⟨S50000x40, .f32⟩ : BufTy).Contents (Elt F) → (⟨S50000x40, .f32⟩ : BufTy).Contents (Elt F)) ]

/-- The log-softmax over the classes: `%85`. -/
abbrev s7 : List (HloOp τ sig (Elt F)) :=
  [ TRef.nullary (TRef.of (T := ⟨S_, .f32⟩) main_call2_cst) (constant S_ .f32 0xFF800000#32),
    TRef.binary (TRef.of (T := ⟨S50000x40, .f32⟩) main_v84) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v84) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v85) subf ]

/-- The operation list is the eight stretches in order. -/
theorem ops_split : (ops : List (HloOp τ sig (Elt F))) = s0 ++ s1 ++ s2 ++ s3 ++ s4 ++ s5 ++ s6 ++ s7 := rfl

/-! ## The contents at the end of each stretch -/

def W1 (m : (ℓ : Loc nD τ sig) → Buf (Elt F) ℓ) (c : Dev nD) : Valuation τ sig (Elt F) := after s0 (launchContents m c)
def W2 (m : (ℓ : Loc nD τ sig) → Buf (Elt F) ℓ) (c : Dev nD) : Valuation τ sig (Elt F) := after s1 (W1 m c)
def W3 (m : (ℓ : Loc nD τ sig) → Buf (Elt F) ℓ) (c : Dev nD) : Valuation τ sig (Elt F) := after s2 (W2 m c)
def W4 (m : (ℓ : Loc nD τ sig) → Buf (Elt F) ℓ) (c : Dev nD) : Valuation τ sig (Elt F) := after s3 (W3 m c)
def W5 (m : (ℓ : Loc nD τ sig) → Buf (Elt F) ℓ) (c : Dev nD) : Valuation τ sig (Elt F) := after s4 (W4 m c)
def W6 (m : (ℓ : Loc nD τ sig) → Buf (Elt F) ℓ) (c : Dev nD) : Valuation τ sig (Elt F) := after s5 (W5 m c)
def W7 (m : (ℓ : Loc nD τ sig) → Buf (Elt F) ℓ) (c : Dev nD) : Valuation τ sig (Elt F) := after s6 (W6 m c)
def W8 (m : (ℓ : Loc nD τ sig) → Buf (Elt F) ℓ) (c : Dev nD) : Valuation τ sig (Elt F) := after s7 (W7 m c)

/-- The contents after all the operations are those after the last stretch. -/
theorem after_ops_eq (m : (ℓ : Loc nD τ sig) → Buf (Elt F) ℓ) (c : Dev nD) : after (ops (F := F)) (launchContents m c) = W8 m c := by
  unfold W8 W7 W6 W5 W4 W3 W2 W1
  rw [ops_split, after_app, after_app, after_app, after_app, after_app, after_app, after_app]

/-! ### After `%7` -/

theorem W1_v1 (m : (ℓ : Loc nD τ sig) → Buf (Elt F) ℓ) (c : Dev nD) :
    W1 m c (Proc.devRef .tc main_v1) = val_main_v1 (F := F) (m ((c.tc : Thread nD τ).loc main_arg1)) := by
  unfold W1 s0
  after_results_simp
  rfl

theorem W1_v3 (m : (ℓ : Loc nD τ sig) → Buf (Elt F) ℓ) (c : Dev nD) :
    W1 m c (Proc.devRef .tc main_v3) = val_main_v3 (F := F) (m ((c.tc : Thread nD τ).loc main_arg1)) := by
  unfold W1 s0
  after_results_simp
  rfl

theorem W1_v7 (m : (ℓ : Loc nD τ sig) → Buf (Elt F) ℓ) (c : Dev nD) :
    W1 m c (Proc.devRef .tc main_v7) = val_main_v7 (F := F) (m ((c.tc : Thread nD τ).loc main_arg0)) (m ((c.tc : Thread nD τ).loc main_arg2)) (m ((c.tc : Thread nD τ).loc main_arg3)) := by
  unfold W1 s0
  after_results_simp
  rfl

/-- The arguments read by later stretches are still at their launch contents. -/
theorem W1_arg (m : (ℓ : Loc nD τ sig) → Buf (Elt F) ℓ) (c : Dev nD) :
    ∀ r ∈ [main_arg4, main_arg5, main_arg6, main_arg7, main_arg8, main_arg9, main_arg10, main_arg11, main_arg12],
      W1 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W1 s0; after_results_simp)

/-! ### After `%26` -/

theorem W2_v1 (m : (ℓ : Loc nD τ sig) → Buf (Elt F) ℓ) (c : Dev nD) :
    W2 m c (Proc.devRef .tc main_v1) = val_main_v1 (F := F) (m ((c.tc : Thread nD τ).loc main_arg1)) := by
  unfold W2 s1
  after_results_simp
  exact W1_v1 m c

theorem W2_v3 (m : (ℓ : Loc nD τ sig) → Buf (Elt F) ℓ) (c : Dev nD) :
    W2 m c (Proc.devRef .tc main_v3) = val_main_v3 (F := F) (m ((c.tc : Thread nD τ).loc main_arg1)) := by
  unfold W2 s1
  after_results_simp
  exact W1_v3 m c

theorem W2_v7 (m : (ℓ : Loc nD τ sig) → Buf (Elt F) ℓ) (c : Dev nD) :
    W2 m c (Proc.devRef .tc main_v7) = val_main_v7 (F := F) (m ((c.tc : Thread nD τ).loc main_arg0)) (m ((c.tc : Thread nD τ).loc main_arg2)) (m ((c.tc : Thread nD τ).loc main_arg3)) := by
  unfold W2 s1
  after_results_simp
  exact W1_v7 m c

theorem W2_v26 (m : (ℓ : Loc nD τ sig) → Buf (Elt F) ℓ) (c : Dev nD) :
    W2 m c (Proc.devRef .tc main_v26) = val_main_v26 (F := F) (m ((c.tc : Thread nD τ).loc main_arg0)) (m ((c.tc : Thread nD τ).loc main_arg1)) (m ((c.tc : Thread nD τ).loc main_arg2)) (m ((c.tc : Thread nD τ).loc main_arg3)) := by
  unfold W2 s1
  after_results_simp
  rw [W1_v7, W1_v1, W1_v3]
  rfl

/-- The arguments read by later stretches are still at their launch contents. -/
theorem W2_arg (m : (ℓ : Loc nD τ sig) → Buf (Elt F) ℓ) (c : Dev nD) :
    ∀ r ∈ [main_arg4, main_arg5, main_arg6, main_arg7, main_arg8, main_arg9, main_arg10, main_arg11, main_arg12],
      W2 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W2 s1; after_results_simp; exact W1_arg m c _ (by decide))

/-! ### After `%33` -/

theorem W3_v1 (m : (ℓ : Loc nD τ sig) → Buf (Elt F) ℓ) (c : Dev nD) :
    W3 m c (Proc.devRef .tc main_v1) = val_main_v1 (F := F) (m ((c.tc : Thread nD τ).loc main_arg1)) := by
  unfold W3 s2
  after_results_simp
  exact W2_v1 m c

theorem W3_v3 (m : (ℓ : Loc nD τ sig) → Buf (Elt F) ℓ) (c : Dev nD) :
    W3 m c (Proc.devRef .tc main_v3) = val_main_v3 (F := F) (m ((c.tc : Thread nD τ).loc main_arg1)) := by
  unfold W3 s2
  after_results_simp
  exact W2_v3 m c

theorem W3_v33 (m : (ℓ : Loc nD τ sig) → Buf (Elt F) ℓ) (c : Dev nD) :
    W3 m c (Proc.devRef .tc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold W3 s2
  after_results_simp
  simp only [TRef.ofBuf, TRef.toBuf, cast_self]
  rw [W2_v26, W2_v7, W2_arg m c main_arg4 (by decide), W2_arg m c main_arg5 (by decide), W2_arg m c main_arg6 (by decide)]
  rfl

/-- The arguments read by later stretches are still at their launch contents. -/
theorem W3_arg (m : (ℓ : Loc nD τ sig) → Buf (Elt F) ℓ) (c : Dev nD) :
    ∀ r ∈ [main_arg4, main_arg5, main_arg6, main_arg7, main_arg8, main_arg9, main_arg10, main_arg11, main_arg12],
      W3 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W3 s2; after_results_simp; exact W2_arg m c _ (by decide))

/-! ### After `%52` -/

theorem W4_v1 (m : (ℓ : Loc nD τ sig) → Buf (Elt F) ℓ) (c : Dev nD) :
    W4 m c (Proc.devRef .tc main_v1) = val_main_v1 (F := F) (m ((c.tc : Thread nD τ).loc main_arg1)) := by
  unfold W4 s3
  after_results_simp
  exact W3_v1 m c

theorem W4_v3 (m : (ℓ : Loc nD τ sig) → Buf (Elt F) ℓ) (c : Dev nD) :
    W4 m c (Proc.devRef .tc main_v3) = val_main_v3 (F := F) (m ((c.tc : Thread nD τ).loc main_arg1)) := by
  unfold W4 s3
  after_results_simp
  exact W3_v3 m c

theorem W4_v33 (m : (ℓ : Loc nD τ sig) → Buf (Elt F) ℓ) (c : Dev nD) :
    W4 m c (Proc.devRef .tc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold W4 s3
  after_results_simp
  exact W3_v33 m c

theorem W4_v52 (m : (ℓ : Loc nD τ sig) → Buf (Elt F) ℓ) (c : Dev nD) :
    W4 m c (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold W4 s3
  after_results_simp
  rw [W3_v33, W3_v1, W3_v3]
  rfl

/-- The arguments read by later stretches are still at their launch contents. -/
theorem W4_arg (m : (ℓ : Loc nD τ sig) → Buf (Elt F) ℓ) (c : Dev nD) :
    ∀ r ∈ [main_arg4, main_arg5, main_arg6, main_arg7, main_arg8, main_arg9, main_arg10, main_arg11, main_arg12],
      W4 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W4 s3; after_results_simp; exact W3_arg m c _ (by decide))

/-! ### After `%59` -/

theorem W5_v1 (m : (ℓ : Loc nD τ sig) → Buf (Elt F) ℓ) (c : Dev nD) :
    W5 m c (Proc.devRef .tc main_v1) = val_main_v1 (F := F) (m ((c.tc : Thread nD τ).loc main_arg1)) := by
  unfold W5 s4
  after_results_simp
  exact W4_v1 m c

theorem W5_v3 (m : (ℓ : Loc nD τ sig) → Buf (Elt F) ℓ) (c : Dev nD) :
    W5 m c (Proc.devRef .tc main_v3) = val_main_v3 (F := F) (m ((c.tc : Thread nD τ).loc main_arg1)) := by
  unfold W5 s4
  after_results_simp
  exact W4_v3 m c

theorem W5_v59 (m : (ℓ : Loc nD τ sig) → Buf (Elt F) ℓ) (c : Dev nD) :
    W5 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold W5 s4
  after_results_simp
  simp only [TRef.ofBuf, TRef.toBuf, cast_self]
  rw [W4_v52, W4_v33, W4_arg m c main_arg7 (by decide), W4_arg m c main_arg8 (by decide), W4_arg m c main_arg9 (by decide)]
  rfl

/-- The arguments read by later stretches are still at their launch contents. -/
theorem W5_arg (m : (ℓ : Loc nD τ sig) → Buf (Elt F) ℓ) (c : Dev nD) :
    ∀ r ∈ [main_arg4, main_arg5, main_arg6, main_arg7, main_arg8, main_arg9, main_arg10, main_arg11, main_arg12],
      W5 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W5 s4; after_results_simp; exact W4_arg m c _ (by decide))

/-! ### After `%78` -/

theorem W6_v59 (m : (ℓ : Loc nD τ sig) → Buf (Elt F) ℓ) (c : Dev nD) :
    W6 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold W6 s5
  after_results_simp
  exact W5_v59 m c

theorem W6_v78 (m : (ℓ : Loc nD τ sig) → Buf (Elt F) ℓ) (c : Dev nD) :
    W6 m c (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold W6 s5
  after_results_simp
  rw [W5_v59, W5_v1, W5_v3]
  rfl

/-- The arguments read by later stretches are still at their launch contents. -/
theorem W6_arg (m : (ℓ : Loc nD τ sig) → Buf (Elt F) ℓ) (c : Dev nD) :
    ∀ r ∈ [main_arg4, main_arg5, main_arg6, main_arg7, main_arg8, main_arg9, main_arg10, main_arg11, main_arg12],
      W6 m c (Proc.devRef .tc r) = m ((c.tc : Thread nD τ).loc r) := by
  intro r hr
  simp only [List.mem_cons, List.not_mem_nil, or_false] at hr
  rcases hr with rfl | rfl | rfl | rfl | rfl | rfl | rfl | rfl | rfl <;>
    (unfold W6 s5; after_results_simp; exact W5_arg m c _ (by decide))

/-! ### After `%84` -/

theorem W7_v84 (m : (ℓ : Loc nD τ sig) → Buf (Elt F) ℓ) (c : Dev nD) :
    W7 m c (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold W7 s6
  after_results_simp
  rw [W6_v78, W6_v59, W6_arg m c main_arg10 (by decide), W6_arg m c main_arg11 (by decide), W6_arg m c main_arg12 (by decide)]
  rfl

/-! ### After `%85` -/

theorem W8_v85 (m : (ℓ : Loc nD τ sig) → Buf (Elt F) ℓ) (c : Dev nD) :
    W8 m c (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold W8 s7
  after_results_simp
  simp only [TRef.ofBuf, TRef.toBuf, cast_self]
  rw [W7_v84]
  rfl

/-- The result buffer after all the operations: the last stage's value of the arguments' launch contents. -/
theorem after_ops_v85 (m : (ℓ : Loc nD τ sig) → Buf (Elt F) ℓ) (c : Dev nD) :
    after (ops (F := F)) (launchContents m c) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops_eq]
  exact W8_v85 m c

set_option maxRecDepth 8192 in
set_option maxHeartbeats 48800000 in
/-- The reference's run: every weakly fair execution of its @main terminates with the result buffer at the last
    stage's value of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  exact (θ_run defs _ _).mono (fun _ h c => ⟨(h c main_v85).trans (after_ops_v85 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.RunThm

end
-- ==== Proof.lean ====
/-
  The certificate of a three-layer GraphSAGE network: a Pallas program of four calls (a linear projection and three
  SAGE combines, each over ten row blocks of 5000 nodes) with the neighbour aggregation between them on the host,
  against plain jnp.

  At the ideal instance both programs compute, layer by layer, the same arrays.  The projection and each combine are
  matrix products with a zero accumulator plus a bias row: the block a grid point writes is that block of ONE
  whole-array function of the arrays the call finds (Proof/Region0 … Region3), and the reference's `dot_general`s,
  read at an index, are the same sums (Proof/RefStages).  The gather and the scatter-add are the same host operations
  in both programs and are never opened.  The neighbour mean is the one place the two texts differ: the kernel
  multiplies the aggregated sums by `1 / max(cnt, 1)`, computed once, where the reference divides by `max(cnt, 1)`;
  a count floored at one is not zero, and off zero the ideal quotient is the product with the inverse
  (Proof/MeanLaw).  The reference adds the bias before the node's own term and the kernel after it: addition of
  extended reals is commutative and associative (Proof/Spec `sage_comm`).  The closing log-softmax is the same chain
  of operations on both sides.  No law used needs finiteness, so the precondition is never opened.

  The kernel's run with its result named (Proof/KernelRun) ends with the result buffer at the fold of @main's
  segments; Proof/KernelFold walks that fold segment by segment to the reference's last layer, and Proof/KernelTail
  carries it through the log-softmax to the reference's last stage of the arguments.
-/
import proofs.«180406_j83794811945603_1_alg».proof.Defs
import proofs.«180406_j83794811945603_1_alg».proof.Proof.Gen.Kernel
import proofs.«180406_j83794811945603_1_alg».proof.Proof.Gen.Kernel.Skeleton
import proofs.«180406_j83794811945603_1_alg».proof.Proof.Gen.Kernel.Launch
import proofs.«180406_j83794811945603_1_alg».proof.Proof.Gen.Kernel.Points
import proofs.«180406_j83794811945603_1_alg».proof.Proof.Gen.Kernel.Frame
import proofs.«180406_j83794811945603_1_alg».proof.Proof.Gen.KernelIdeal
import proofs.«180406_j83794811945603_1_alg».proof.Proof.Gen.KernelIdeal.Skeleton
import proofs.«180406_j83794811945603_1_alg».proof.Proof.Gen.KernelIdeal.Launch
import proofs.«180406_j83794811945603_1_alg».proof.Proof.Gen.KernelIdeal.Points
import proofs.«180406_j83794811945603_1_alg».proof.Proof.Gen.KernelIdeal.Frame
import proofs.«180406_j83794811945603_1_alg».proof.Proof.Gen.ReferenceIdeal
import proofs.«180406_j83794811945603_1_alg».proof.Proof.Gen.Pre_finite_inputs
import proofs.«180406_j83794811945603_1_alg».proof.Proof.KernelRun
import proofs.«180406_j83794811945603_1_alg».proof.Proof.KernelFold
import proofs.«180406_j83794811945603_1_alg».proof.Proof.KernelTail
import proofs.«180406_j83794811945603_1_alg».proof.Proof.RefRunThm
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its reading at the ideal instance. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RunThm.run (F := Ideal) m ρ)

/-- From memories that agree on the arguments both programs end, with equal results: the kernel's result buffer holds
    the fold of its segments, which is the reference's last stage of the kernel's arguments; the reference's holds that
    stage of its own arguments, which are the kernel's. -/
theorem algebraic : Cert.algebraic_KernelIdeal_ReferenceIdeal := by
  intro m ρ m' ρ' _ hagree
  refine ⟨fun c => Cert.KernelIdeal.Gen.W9 m ρ c (Proc.devRef .tc Cert.KernelIdeal.main_v57),
    Cert.KernelIdeal.GenV.run_value (F := Ideal) m ρ, ?_⟩
  refine (θ_run Cert.ReferenceIdeal.defs _ _).mono (fun _ h c => ⟨(h c).1.trans ?_, (h c).2⟩)
    (Cert.ReferenceIdeal.RunThm.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.KernelIdeal.Tail.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
